-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_v33 : IVec S_ 1) : IVec S_ 1 :=
  let main_c_12 : IVec S_ 32 := constantI S_ 32 4294867296#32
  let main_v34 : IVec S1600000 32 := broadcastInDim S1600000 ![] bcast_S_S1600000 main_c_12
  let main_v35 : IVec S1600000 1 := cmpi .sge main_arg1 main_v34
  let main_c_13 : IVec S_ 32 := constantI S_ 32 100000#32
  let main_v36 : IVec S1600000 32 := broadcastInDim S1600000 ![] bcast_S_S1600000 main_c_13
  let main_v37 : IVec S1600000 1 := cmpi .slt main_arg1 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  main_v40

def fn_part1 {F : FTy → Type} [FloatOps F] (main_arg1 : IVec S1600000 32) (main_arg6 : FVec F S128 .f32) (main_arg7 : FVec F S128x47 .f32) (main_arg8 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg7
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg8
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x47 .f32) (main_arg8 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x47 : Shape := ⟨2, ![1, 47]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S100000x47 : Shape := ⟨2, ![100000, 47]⟩
abbrev S5000x47 : Shape := ⟨2, ![5000, 47]⟩

abbrev nBuf : Space → Nat
  | .hbm => 125
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x47, .f32⟩
  | .hbm, ⟨8, _⟩ => ⟨S47, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S1x128, .f32⟩
  | .hbm, ⟨36, _⟩ => ⟨S1x128, .f32⟩
  | .hbm, ⟨37, _⟩ => ⟨S1x47, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1, .i32⟩
  | .hbm, ⟨48, _⟩ => ⟨S_, .i32⟩
  | .hbm, ⟨49, _⟩ => ⟨S1600000x1, .i32⟩
  | .hbm, ⟨50, _⟩ => ⟨S1600000x1, .i1⟩
  | .hbm, ⟨51, _⟩ => ⟨S1x1, .i32⟩
  | .hbm, ⟨52, _⟩ => ⟨S1600000x1, .i32⟩
  | .hbm, ⟨53, _⟩ => ⟨S1600000x1, .i1⟩
  | .hbm, ⟨54, _⟩ => ⟨S1600000x1, .i1⟩
  | .hbm, ⟨55, _⟩ => ⟨S_, .i1⟩
  | .hbm, ⟨56, _⟩ => ⟨S1600000, .i1⟩
  | .hbm, ⟨57, _⟩ => ⟨S1600000x128, .f32⟩
  | .hbm, ⟨58, _⟩ => ⟨S1600000x128, .i1⟩
  | .hbm, ⟨59, _⟩ => ⟨S_, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1, .i32⟩
  | .hbm, ⟨77, _⟩ => ⟨S_, .i32⟩
  | .hbm, ⟨78, _⟩ => ⟨S1600000x1, .i32⟩
  | .hbm, ⟨79, _⟩ => ⟨S1600000x1, .i1⟩
  | .hbm, ⟨80, _⟩ => ⟨S1x1, .i32⟩
  | .hbm, ⟨81, _⟩ => ⟨S1600000x1, .i32⟩
  | .hbm, ⟨82, _⟩ => ⟨S1600000x1, .i1⟩
  | .hbm, ⟨83, _⟩ => ⟨S1600000x1, .i1⟩
  | .hbm, ⟨84, _⟩ => ⟨S_, .i1⟩
  | .hbm, ⟨85, _⟩ => ⟨S1600000, .i1⟩
  | .hbm, ⟨86, _⟩ => ⟨S1600000x128, .f32⟩
  | .hbm, ⟨87, _⟩ => ⟨S1600000x128, .i1⟩
  | .hbm, ⟨88, _⟩ => ⟨S_, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1, .i32⟩
  | .hbm, ⟨106, _⟩ => ⟨S_, .i32⟩
  | .hbm, ⟨107, _⟩ => ⟨S1600000x1, .i32⟩
  | .hbm, ⟨108, _⟩ => ⟨S1600000x1, .i1⟩
  | .hbm, ⟨109, _⟩ => ⟨S1x1, .i32⟩
  | .hbm, ⟨110, _⟩ => ⟨S1600000x1, .i32⟩
  | .hbm, ⟨111, _⟩ => ⟨S1600000x1, .i1⟩
  | .hbm, ⟨112, _⟩ => ⟨S1600000x1, .i1⟩
  | .hbm, ⟨113, _⟩ => ⟨S_, .i1⟩
  | .hbm, ⟨114, _⟩ => ⟨S1600000, .i1⟩
  | .hbm, ⟨115, _⟩ => ⟨S1600000x128, .f32⟩
  | .hbm, ⟨116, _⟩ => ⟨S1600000x128, .i1⟩
  | .hbm, ⟨117, _⟩ => ⟨S_, .f32⟩
  | .hbm, ⟨118, _⟩ => ⟨S1600000x128, .f32⟩
  | .hbm, ⟨119, _⟩ => ⟨S1600000x128, .f32⟩
  | .hbm, ⟨120, _⟩ => ⟨S_, .f32⟩
  | .hbm, ⟨121, _⟩ => ⟨S100000x128, .f32⟩
  | .hbm, ⟨122, _⟩ => ⟨S1600000x1, .i32⟩
  | .hbm, ⟨123, _⟩ => ⟨S100000x128, .f32⟩
  | .hbm, ⟨124, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x47, .f32⟩
  | .local _ .vmem, ⟨39, _⟩ => ⟨S1x47, .f32⟩
  | .local _ .vmem, ⟨40, _⟩ => ⟨S5000x47, .f32⟩
  | .local _ .vmem, ⟨41, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_cst : Ref sig .tc := ⟨.hbm, 59, rfl⟩
abbrev main_call2_v15 : Ref sig .tc := ⟨.hbm, 60, rfl⟩
abbrev main_v19 : Ref sig .tc := ⟨.hbm, 61, rfl⟩
abbrev main_cst_6 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_call3_cst : Ref sig .tc := ⟨.hbm, 88, rfl⟩
abbrev main_call3_v15 : Ref sig .tc := ⟨.hbm, 89, rfl⟩
abbrev main_v25 : Ref sig .tc := ⟨.hbm, 90, rfl⟩
abbrev main_cst_7 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c_1 : Ref sig .tc := ⟨.hbm, 105, rfl⟩
abbrev main_call4_c_2 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_3 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_call4_cst : Ref sig .tc := ⟨.hbm, 117, rfl⟩
abbrev main_call4_v15 : Ref sig .tc := ⟨.hbm, 118, rfl⟩
abbrev main_v31 : Ref sig .tc := ⟨.hbm, 119, rfl⟩
abbrev main_cst_8 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x47 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x47 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x47 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S47_S1x47 : S47.ShapeCasts S1x47
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x47.size a ≤ S128x47.size a
  hwx5_2 : ∀ i : grid5.Coords, EltTy.bits .f32 = 32 ∨ (Rect.block (s := S128x47) S128x47.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x47.size a ≤ S1x47.size a
  hwx5_3 : ∀ i : grid5.Coords, EltTy.bits .f32 = 32 ∨ (Rect.block (s := S1x47) S1x47.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x47.size a ≤ S100000x47.size a
  hwx5_4 : ∀ i : grid5.Coords, EltTy.bits .f32 = 32 ∨ (Rect.block (s := S100000x47) S5000x47.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v34) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x47.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v17) S1x47.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v35) S5000x47.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x47 : Shape := ⟨2, ![100000, 47]⟩
abbrev S1x47 : Shape := ⟨2, ![1, 47]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x47, .f32⟩
  | .hbm, ⟨8, _⟩ => ⟨S47, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x47, .f32⟩
  | .hbm, ⟨111, _⟩ => ⟨S1x47, .f32⟩
  | .hbm, ⟨112, _⟩ => ⟨S100000x47, .f32⟩
  | .hbm, ⟨113, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_call2_cst : Ref sig .tc := ⟨.hbm, 33, rfl⟩
abbrev main_call2_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call3_cst : Ref sig .tc := ⟨.hbm, 59, rfl⟩
abbrev main_call3_v0 : Ref sig .tc := ⟨.hbm, 60, rfl⟩
abbrev main_v34 : Ref sig .tc := ⟨.hbm, 61, rfl⟩
abbrev main_call4_cst : Ref sig .tc := ⟨.hbm, 62, rfl⟩
abbrev main_call4_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_8 : Ref sig .tc := ⟨.hbm, 68, rfl⟩
abbrev main_v39 : Ref sig .tc := ⟨.hbm, 69, rfl⟩
abbrev main_v40 : Ref sig .tc := ⟨.hbm, 70, rfl⟩
abbrev main_c_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call5_cst : Ref sig .tc := ⟨.hbm, 88, rfl⟩
abbrev main_call5_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_11 : Ref sig .tc := ⟨.hbm, 94, rfl⟩
abbrev main_v60 : Ref sig .tc := ⟨.hbm, 95, rfl⟩
abbrev main_v61 : Ref sig .tc := ⟨.hbm, 96, rfl⟩
abbrev main_c_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.ConvMaps.lean ====
/-
  The two row-wise maps of a graph-convolution layer, as index-by-index functions over the extended reals.

  `scaled`: every row p of an [N, 128] table multiplied by that row's entry of an [N, 1] column, after an optional
  clamp of the table at zero:            out[p, q] = (max(h[p, q], 0) or h[p, q]) · n[p, 0].
  `conv`: every row scaled by its column entry, multiplied by a [128, D] weight table, a [1, D] row added, and an
  optional clamp at zero:                out[p, q] = (Σ_k (g[p, k] · n[p, 0]) · W[k, q]) + b[0, q]   (then max with 0).
  The clamp value is kept as the zero word's reading, never evaluated: both programs carry the same word.
-/
import Idealize.ShloMosaic.PureOps.Ideal.Laws
import Idealize.ShloMosaic.Lib.ValueIdx
import Idealize.ShloMosaic.Lib.StableHlo.Predicate

noncomputable section

namespace Cert.GraphConv

open Idealize.ShloMosaic Idealize.ShloMosaic.ValueIdx Idealize.ShloMosaic.StableHlo.Predicate

/-- The number of nodes. -/
abbrev N : ℕ := 100000
/-- The number of edges. -/
abbrev E : ℕ := 1600000

abbrev SNx128 : Shape := ⟨2, ![100000, 128]⟩
abbrev SNx1 : Shape := ⟨2, ![100000, 1]⟩
abbrev SN : Shape := ⟨1, ![100000]⟩
abbrev SE : Shape := ⟨1, ![1600000]⟩
abbrev SEx1 : Shape := ⟨2, ![1600000, 1]⟩
abbrev SEx128 : Shape := ⟨2, ![1600000, 128]⟩

/-- The value both programs clamp at: the reading of the zero word. -/
abbrev z : EReal := Ideal.ofBits .f32 0x00000000#32

/-- Entry (p, q) of the scaled table. -/
def scaledAt (relu : Bool) (h : SNx128.Idx → EReal) (n : SNx1.Idx → EReal) (p : Fin 100000) (q : Fin 128) : EReal :=
  (if relu then max (h (ij p q)) z else h (ij p q)) * n (ixP p)

/-- The scaled table. -/
def scaled (relu : Bool) (h : SNx128.Idx → EReal) (n : SNx1.Idx → EReal) : SNx128.Idx → EReal :=
  fun i => scaledAt relu h n (i 0) (i 1)

theorem scaled_ij (relu : Bool) (h : SNx128.Idx → EReal) (n : SNx1.Idx → EReal) (p : Fin 100000) (q : Fin 128) :
    scaled relu h n (ij p q) = scaledAt relu h n p q := rfl

/-- Entry (p, q) of a layer's output, for a weight table of D columns. -/
def convAt {D : ℕ} (relu : Bool) (g : SNx128.Idx → EReal) (n : SNx1.Idx → EReal)
    (W : (⟨2, ![128, D]⟩ : Shape).Idx → EReal) (b : (⟨2, ![1, D]⟩ : Shape).Idx → EReal) (p : Fin 100000) (q : Fin D) : EReal :=
  if relu then max ((∑ k : Fin 128, (g (ij p k) * n (ixP p)) * W (ij k q)) + b (i1q q)) z
  else (∑ k : Fin 128, (g (ij p k) * n (ixP p)) * W (ij k q)) + b (i1q q)

/-- A layer's output table. -/
def conv {D : ℕ} (relu : Bool) (g : SNx128.Idx → EReal) (n : SNx1.Idx → EReal)
    (W : (⟨2, ![128, D]⟩ : Shape).Idx → EReal) (b : (⟨2, ![1, D]⟩ : Shape).Idx → EReal) :
    (⟨2, ![100000, D]⟩ : Shape).Idx → EReal :=
  fun i => convAt relu g n W b (i 0) (i 1)

theorem conv_ij {D : ℕ} (relu : Bool) (g : SNx128.Idx → EReal) (n : SNx1.Idx → EReal)
    (W : (⟨2, ![128, D]⟩ : Shape).Idx → EReal) (b : (⟨2, ![1, D]⟩ : Shape).Idx → EReal) (p : Fin 100000) (q : Fin D) :
    conv relu g n W b (ij p q) = convAt relu g n W b p q := rfl

/-- Clamping twice at the same value is clamping once. -/
theorem max_max_self (a c : EReal) : max (max a c) c = max a c := by
  rw [max_assoc, max_self]

/-- A table already clamped at zero is unchanged by the clamp inside `scaled`. -/
theorem scaled_relu_of_clamped (h : SNx128.Idx → EReal) (n : SNx1.Idx → EReal) (g : SNx128.Idx → EReal)
    (hh : ∀ i, h i = max (g i) z) : scaled true h n = scaled false h n := by
  funext i
  simp only [scaled, scaledAt, if_true, hh, max_max_self]
  rfl

/-! ## Three layers

  `agg` stands for what lies between a layer's two row-wise maps: the rows looked up at the edges' source ids and added
  up at their destination ids. Both programs apply the same `agg`; the layers only see it as a function of the table. -/

/-- The three layers: scale (clamping the input first), aggregate, multiply; twice more without the input clamp, the
    last without the output clamp. -/
def net (agg : (SNx128.Idx → EReal) → (SNx128.Idx → EReal)) (x : SNx128.Idx → EReal) (ns nd : SNx1.Idx → EReal)
    (W0 : (⟨2, ![128, 128]⟩ : Shape).Idx → EReal) (b0 : (⟨2, ![1, 128]⟩ : Shape).Idx → EReal)
    (W1 : (⟨2, ![128, 128]⟩ : Shape).Idx → EReal) (b1 : (⟨2, ![1, 128]⟩ : Shape).Idx → EReal)
    (W2 : (⟨2, ![128, 47]⟩ : Shape).Idx → EReal) (b2 : (⟨2, ![1, 47]⟩ : Shape).Idx → EReal) :
    (⟨2, ![100000, 47]⟩ : Shape).Idx → EReal :=
  conv false (agg (scaled false (conv true (agg (scaled false (conv true (agg (scaled true x ns)) nd W0 b0) ns)) nd W1 b1) ns)) nd W2 b2

/-! ## The lookup of rows by a column of node ids, with the fill a table lookup in `fill` mode makes -/

/-- Where every id's range bit is set, choosing by the bits between the looked-up rows and a fill is the looked-up rows. -/
theorem select_of_all_set {s : Shape} {α : Type} (c : IVec s 1) (a b : s.Idx → α) (hc : ∀ i, c i = 1#1) :
    select c a b = a := by
  funext i
  rw [select_apply, hc i, select_one]

end Cert.GraphConv

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.RegionScale0.lean ====
/-
  The first row scaling (the region over a grid of 20 points, each a block of 5000 rows of the [100000, 128] table).

  At point t the body reads block (t, 0) of the table and block (t, 0) of the [100000, 1] column, clamps the table's
  block at zero, multiplies every row by that row's entry of the column, and stores the whole [5000, 128] result block,
  which is written back as block (t, 0) of the output. So entry (p, q) of what point t writes is
      max(h[5000 t + p, q], 0) · n[5000 t + p, 0],
  which is entry (5000 t + p, q) of the scaled table `scaled true h n`; the 20 blocks tile the output's rows, so the
  output array after the region IS the scaled table.
-/
import proofs.«402026_j9818295239119_1_alg».proof.Proof.Gen.KernelIdeal.Frame
import proofs.«402026_j9818295239119_1_alg».proof.Proof.ConvMaps
import proofs.«402026_j9818295239119_1_alg».proof.Proof.LibColumn
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GraphConv Idealize.ShloMosaic.StableHlo.Predicate Idealize.ShloMosaic.ValueIdx

variable (V : (c : Dev nD) → (b : Ref sig .tc) → Buf (Elt Ideal) ((c : Thread nD τ).loc b))

/-- The pair of zero offsets is the zero offset function. -/
theorem hz0 : (![0, 0] : Fin 2 → Nat) = fun _ => 0 := funext fun a => by fin_cases a <;> rfl

/-- The two spellings of the index (p, q) agree. -/
theorem ij_eq_ix2_0 {n m : Nat} (p : Fin n) (q : Fin m) : (ij p q : (⟨2, ![n, m]⟩ : Shape).Idx) = ix2 p q := by
  funext a; match a with | ⟨0, _⟩ => rfl | ⟨1, _⟩ => rfl

/-- The two spellings of the column index (p, 0) agree. -/
theorem ixP_eq_ix2_0 {n : Nat} (p : Fin n) : (ixP p : (⟨2, ![n, 1]⟩ : Shape).Idx) = ix2 p (0 : Fin 1) := by
  funext a; match a with | ⟨0, _⟩ => rfl | ⟨1, _⟩ => rfl

/-- Entry (p, q) of the body's result: the table's entry clamped at zero, times row p's entry of the column. -/
theorem pay0_apply (x0 : Vec Ideal S5000x128 .f32) (x1 : Vec Ideal S5000x1 .f32) (p : Fin 5000) (q : Fin 128) :
    (k0_pay1 (F := Ideal) x0 x1 : S5000x128.Idx → EReal) (ij p q) = max (x0 (ij p q)) z * x1 (ixP p) := by
  unfold k0_pay1
  rw [shapeCast_self]
  refine (mulf_apply _ _ _).trans ?_
  refine congrArg₂ (· * ·) rfl ?_
  rw [ij_eq_ix2_0, ixP_eq_ix2_0]
  exact Cert.Column.broadcastTo_a1_ab_apply _ _ p q

/-- The index maps over the grid: at point t every window's block is block (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The table's block at point t reads the table at the block's place in it. -/
theorem iblk0_0_apply (c : Dev nD) (t : Fin cfg0.N) (y : S5000x128.Idx) :
    (iblk0 (F := Ideal) V c 0 t : S5000x128.Idx → EReal) y
      = (V c main_arg0 : S100000x128.Idx → EReal) (((cfg0.win 0).blk t).view.emb y) := rfl

/-- The column's block at point t reads the column at the block's place in it. -/
theorem iblk0_1_apply (c : Dev nD) (t : Fin cfg0.N) (y : S5000x1.Idx) :
    (iblk0 (F := Ideal) V c 1 t : S5000x1.Idx → EReal) y
      = (V c main_v11 : S100000x1.Idx → EReal) (((cfg0.win 1).blk t).view.emb y) := rfl

/-- What point t writes back is block t of the scaled table. -/
theorem flushed0_eq (c : Dev nD) (t : Fin cfg0.N) :
    (dat0 (F := Ideal) V c).flushed 2 t
      = ((cfg0.win 2).blk t).view.read (Elt Ideal) (scaled true (V c main_arg0) (V c main_v11)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S5000x1) hz0]
  obtain ⟨e0, e1, e2, e3, e4, e5⟩ := idx_facts0 t
  refine funext fun (j : S5000x128.Idx) => ?_
  obtain ⟨p, q, rfl⟩ : ∃ (p : Fin 5000) (q : Fin 128), j = ij p q := ⟨j 0, j 1, (ij_eta j).symm⟩
  show (k0_pay1 (F := Ideal) (iblk0 V c 0 t) (iblk0 V c 1 t) : S5000x128.Idx → EReal) (ij p q)
      = scaled true (V c main_arg0) (V c main_v11) (((cfg0.win 2).blk t).view.emb (ij p q))
  rw [pay0_apply, iblk0_0_apply, iblk0_1_apply]
  have h0 : ((cfg0.win 0).blk t).view.emb (ij p q)
      = (ij ((((cfg0.win 2).blk t).view.emb (ij p q)) 0) ((((cfg0.win 2).blk t).view.emb (ij p q)) 1) : S100000x128.Idx) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  have h1 : ((cfg0.win 1).blk t).view.emb (ixP p)
      = (ixP ((((cfg0.win 2).blk t).view.emb (ij p q)) 0) : S100000x1.Idx) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  rw [h0, h1]
  rfl

/-- An index of the array lies in point t's block iff each coordinate lies in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v18).slice (win0_2.rect t)).set ↔ _
  rw [View.set_slice_whole, Rect.mem_set_unit]
  exact Iff.rfl

/-- The blocks tile the array: row r lies in the block of point r / 5000. -/
theorem cover0 (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [hN]; omega⟩, rfl⟩
  refine ⟨t, flush0_2 t, ?_⟩
  rw [mem_blk0]
  obtain ⟨-, -, -, -, e4, e5⟩ := idx_facts0 t
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the output array is the scaled table: the input table clamped at zero, each row times its
    entry of the column. -/
theorem region0_value (c : Dev nD) :
    ((dat0 (F := Ideal) V c).arrAt 2 cfg0.N : S100000x128.Idx → EReal)
      = scaled true (V c main_arg0) (V c main_v11) :=
  (dat0 (F := Ideal) V c).arrAt_eq_of_cover 2 (scaled true (V c main_arg0) (V c main_v11))
    (fun t _ => flushed0_eq V c t) cover0

end Cert.KernelIdeal.Hand
end
-- ==== Proof.RegionScale2.lean ====
/-
  The second row scaling (the region over a grid of 20 points, each a block of 5000 rows of the [100000, 128] table).

  At point t the body reads block (t, 0) of the table and block (t, 0) of the [100000, 1] column, multiplies every row
  of the table's block by that row's entry of the column, and stores the whole [5000, 128] result block, which is
  written back as block (t, 0) of the output. So entry (p, q) of what point t writes is
      h[5000 t + p, q] · n[5000 t + p, 0],
  which is entry (5000 t + p, q) of the scaled table `scaled false h n`; the 20 blocks tile the output's rows, so the
  output array after the region IS the scaled table.
-/
import proofs.«402026_j9818295239119_1_alg».proof.Proof.Gen.KernelIdeal.Frame
import proofs.«402026_j9818295239119_1_alg».proof.Proof.ConvMaps
import proofs.«402026_j9818295239119_1_alg».proof.Proof.LibColumn
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GraphConv Idealize.ShloMosaic.StableHlo.Predicate Idealize.ShloMosaic.ValueIdx

variable (V : (c : Dev nD) → (b : Ref sig .tc) → Buf (Elt Ideal) ((c : Thread nD τ).loc b))

/-- The pair of zero offsets is the zero offset function. -/
theorem hz2 : (![0, 0] : Fin 2 → Nat) = fun _ => 0 := funext fun a => by fin_cases a <;> rfl

/-- The two spellings of the index (p, q) agree. -/
theorem ij_eq_ix2_2 {n m : Nat} (p : Fin n) (q : Fin m) : (ij p q : (⟨2, ![n, m]⟩ : Shape).Idx) = ix2 p q := by
  funext a; match a with | ⟨0, _⟩ => rfl | ⟨1, _⟩ => rfl

/-- The two spellings of the column index (p, 0) agree. -/
theorem ixP_eq_ix2_2 {n : Nat} (p : Fin n) : (ixP p : (⟨2, ![n, 1]⟩ : Shape).Idx) = ix2 p (0 : Fin 1) := by
  funext a; match a with | ⟨0, _⟩ => rfl | ⟨1, _⟩ => rfl

/-- Entry (p, q) of the body's result: the table's entry times row p's entry of the column. -/
theorem pay2_apply (x0 : Vec Ideal S5000x128 .f32) (x1 : Vec Ideal S5000x1 .f32) (p : Fin 5000) (q : Fin 128) :
    (k2_pay1 (F := Ideal) x0 x1 : S5000x128.Idx → EReal) (ij p q) = x0 (ij p q) * x1 (ixP p) := by
  unfold k2_pay1
  rw [shapeCast_self, shapeCast_self]
  refine (mulf_apply _ _ _).trans ?_
  refine congrArg₂ (· * ·) rfl ?_
  rw [ij_eq_ix2_2, ixP_eq_ix2_2]
  exact Cert.Column.broadcastTo_a1_ab_apply _ _ p q

/-- The index maps over the grid: at point t every window's block is block (t, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The table's block at point t reads the table at the block's place in it. -/
theorem iblk2_0_apply (c : Dev nD) (t : Fin cfg2.N) (y : S5000x128.Idx) :
    (iblk2 (F := Ideal) V c 0 t : S5000x128.Idx → EReal) y
      = (V c main_v23 : S100000x128.Idx → EReal) (((cfg2.win 0).blk t).view.emb y) := rfl

/-- The column's block at point t reads the column at the block's place in it. -/
theorem iblk2_1_apply (c : Dev nD) (t : Fin cfg2.N) (y : S5000x1.Idx) :
    (iblk2 (F := Ideal) V c 1 t : S5000x1.Idx → EReal) y
      = (V c main_v11 : S100000x1.Idx → EReal) (((cfg2.win 1).blk t).view.emb y) := rfl

/-- What point t writes back is block t of the scaled table. -/
theorem flushed2_eq (c : Dev nD) (t : Fin cfg2.N) :
    (dat2 (F := Ideal) V c).flushed 2 t
      = ((cfg2.win 2).blk t).view.read (Elt Ideal) (scaled false (V c main_v23) (V c main_v11)) := by
  show (cfg2.win 2).cut (grid2.coords t) ((dat2 (F := Ideal) V c).after 2 t) = _
  rw [after2_2]
  unfold out2_2
  rw [View.canon_unit_zero hz2]
  simp only [View.ld_unit_zero (S := S5000x128) hz2, View.ld_unit_zero (S := S5000x1) hz2]
  obtain ⟨e0, e1, e2, e3, e4, e5⟩ := idx_facts2 t
  refine funext fun (j : S5000x128.Idx) => ?_
  obtain ⟨p, q, rfl⟩ : ∃ (p : Fin 5000) (q : Fin 128), j = ij p q := ⟨j 0, j 1, (ij_eta j).symm⟩
  show (k2_pay1 (F := Ideal) (iblk2 V c 0 t) (iblk2 V c 1 t) : S5000x128.Idx → EReal) (ij p q)
      = scaled false (V c main_v23) (V c main_v11) (((cfg2.win 2).blk t).view.emb (ij p q))
  rw [pay2_apply, iblk2_0_apply, iblk2_1_apply]
  have h0 : ((cfg2.win 0).blk t).view.emb (ij p q)
      = (ij ((((cfg2.win 2).blk t).view.emb (ij p q)) 0) ((((cfg2.win 2).blk t).view.emb (ij p q)) 1) : S100000x128.Idx) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : ((cfg2.win 1).blk t).view.emb (ixP p)
      = (ixP ((((cfg2.win 2).blk t).view.emb (ij p q)) 0) : S100000x1.Idx) := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 1 + 1 * 0 = 0; omega
  rw [h0, h1]
  rfl

/-- An index of the array lies in point t's block iff each coordinate lies in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v24).slice (win2_2.rect t)).set ↔ _
  rw [View.set_slice_whole, Rect.mem_set_unit]
  exact Iff.rfl

/-- The blocks tile the array: row r lies in the block of point r / 5000. -/
theorem cover2 (i : S100000x128.Idx) :
    ∃ t : Fin cfg2.N, (cfg2.win 2).flush t = true ∧ i ∈ ((cfg2.win 2).blk t).view.set := by
  have hN : grid2.N = 20 := N_2
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [hN]; omega⟩, rfl⟩
  refine ⟨t, flush2_2 t, ?_⟩
  rw [mem_blk2]
  obtain ⟨-, -, -, -, e4, e5⟩ := idx_facts2 t
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the region the output array is the scaled table: each row of the input table times its entry of the
    column. -/
theorem region2_value (c : Dev nD) :
    ((dat2 (F := Ideal) V c).arrAt 2 cfg2.N : S100000x128.Idx → EReal)
      = scaled false (V c main_v23) (V c main_v11) :=
  (dat2 (F := Ideal) V c).arrAt_eq_of_cover 2 (scaled false (V c main_v23) (V c main_v11))
    (fun t _ => flushed2_eq V c t) cover2

end Cert.KernelIdeal.Hand
end
-- ==== Proof.RegionScale4.lean ====
/-
  The third row scaling (the region over a grid of 20 points, each a block of 5000 rows of the [100000, 128] table).

  At point t the body reads block (t, 0) of the table and block (t, 0) of the [100000, 1] column, multiplies every row
  of the table's block by that row's entry of the column, and stores the whole [5000, 128] result block, which is
  written back as block (t, 0) of the output. So entry (p, q) of what point t writes is
      h[5000 t + p, q] · n[5000 t + p, 0],
  which is entry (5000 t + p, q) of the scaled table `scaled false h n`; the 20 blocks tile the output's rows, so the
  output array after the region IS the scaled table.
-/
import proofs.«402026_j9818295239119_1_alg».proof.Proof.Gen.KernelIdeal.Frame
import proofs.«402026_j9818295239119_1_alg».proof.Proof.ConvMaps
import proofs.«402026_j9818295239119_1_alg».proof.Proof.LibColumn
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GraphConv Idealize.ShloMosaic.StableHlo.Predicate Idealize.ShloMosaic.ValueIdx

variable (V : (c : Dev nD) → (b : Ref sig .tc) → Buf (Elt Ideal) ((c : Thread nD τ).loc b))

/-- The pair of zero offsets is the zero offset function. -/
theorem hz4 : (![0, 0] : Fin 2 → Nat) = fun _ => 0 := funext fun a => by fin_cases a <;> rfl

/-- The two spellings of the index (p, q) agree. -/
theorem ij_eq_ix2_4 {n m : Nat} (p : Fin n) (q : Fin m) : (ij p q : (⟨2, ![n, m]⟩ : Shape).Idx) = ix2 p q := by
  funext a; match a with | ⟨0, _⟩ => rfl | ⟨1, _⟩ => rfl

/-- The two spellings of the column index (p, 0) agree. -/
theorem ixP_eq_ix2_4 {n : Nat} (p : Fin n) : (ixP p : (⟨2, ![n, 1]⟩ : Shape).Idx) = ix2 p (0 : Fin 1) := by
  funext a; match a with | ⟨0, _⟩ => rfl | ⟨1, _⟩ => rfl

/-- Entry (p, q) of the body's result: the table's entry times row p's entry of the column. -/
theorem pay4_apply (x0 : Vec Ideal S5000x128 .f32) (x1 : Vec Ideal S5000x1 .f32) (p : Fin 5000) (q : Fin 128) :
    (k4_pay1 (F := Ideal) x0 x1 : S5000x128.Idx → EReal) (ij p q) = x0 (ij p q) * x1 (ixP p) := by
  unfold k4_pay1
  rw [shapeCast_self, shapeCast_self]
  refine (mulf_apply _ _ _).trans ?_
  refine congrArg₂ (· * ·) rfl ?_
  rw [ij_eq_ix2_4, ixP_eq_ix2_4]
  exact Cert.Column.broadcastTo_a1_ab_apply _ _ p q

/-- The index maps over the grid: at point t every window's block is block (t, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The table's block at point t reads the table at the block's place in it. -/
theorem iblk4_0_apply (c : Dev nD) (t : Fin cfg4.N) (y : S5000x128.Idx) :
    (iblk4 (F := Ideal) V c 0 t : S5000x128.Idx → EReal) y
      = (V c main_v29 : S100000x128.Idx → EReal) (((cfg4.win 0).blk t).view.emb y) := rfl

/-- The column's block at point t reads the column at the block's place in it. -/
theorem iblk4_1_apply (c : Dev nD) (t : Fin cfg4.N) (y : S5000x1.Idx) :
    (iblk4 (F := Ideal) V c 1 t : S5000x1.Idx → EReal) y
      = (V c main_v11 : S100000x1.Idx → EReal) (((cfg4.win 1).blk t).view.emb y) := rfl

/-- What point t writes back is block t of the scaled table. -/
theorem flushed4_eq (c : Dev nD) (t : Fin cfg4.N) :
    (dat4 (F := Ideal) V c).flushed 2 t
      = ((cfg4.win 2).blk t).view.read (Elt Ideal) (scaled false (V c main_v29) (V c main_v11)) := by
  show (cfg4.win 2).cut (grid4.coords t) ((dat4 (F := Ideal) V c).after 2 t) = _
  rw [after4_2]
  unfold out4_2
  rw [View.canon_unit_zero hz4]
  simp only [View.ld_unit_zero (S := S5000x128) hz4, View.ld_unit_zero (S := S5000x1) hz4]
  obtain ⟨e0, e1, e2, e3, e4, e5⟩ := idx_facts4 t
  refine funext fun (j : S5000x128.Idx) => ?_
  obtain ⟨p, q, rfl⟩ : ∃ (p : Fin 5000) (q : Fin 128), j = ij p q := ⟨j 0, j 1, (ij_eta j).symm⟩
  show (k4_pay1 (F := Ideal) (iblk4 V c 0 t) (iblk4 V c 1 t) : S5000x128.Idx → EReal) (ij p q)
      = scaled false (V c main_v29) (V c main_v11) (((cfg4.win 2).blk t).view.emb (ij p q))
  rw [pay4_apply, iblk4_0_apply, iblk4_1_apply]
  have h0 : ((cfg4.win 0).blk t).view.emb (ij p q)
      = (ij ((((cfg4.win 2).blk t).view.emb (ij p q)) 0) ((((cfg4.win 2).blk t).view.emb (ij p q)) 1) : S100000x128.Idx) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = win4_2.index t (1 : Fin 2) * 128 + 1 * q.val; omega
  have h1 : ((cfg4.win 1).blk t).view.emb (ixP p)
      = (ixP ((((cfg4.win 2).blk t).view.emb (ij p q)) 0) : S100000x1.Idx) := by
    funext a; apply Fin.ext
    match a with
    | ⟨0, _⟩ => show win4_1.index t (0 : Fin 2) * 5000 + 1 * p.val = win4_2.index t (0 : Fin 2) * 5000 + 1 * p.val; omega
    | ⟨1, _⟩ => show win4_1.index t (1 : Fin 2) * 1 + 1 * 0 = 0; omega
  rw [h0, h1]
  rfl

/-- An index of the array lies in point t's block iff each coordinate lies in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v30).slice (win4_2.rect t)).set ↔ _
  rw [View.set_slice_whole, Rect.mem_set_unit]
  exact Iff.rfl

/-- The blocks tile the array: row r lies in the block of point r / 5000. -/
theorem cover4 (i : S100000x128.Idx) :
    ∃ t : Fin cfg4.N, (cfg4.win 2).flush t = true ∧ i ∈ ((cfg4.win 2).blk t).view.set := by
  have hN : grid4.N = 20 := N_4
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by show (i 0).val / 5000 < grid4.N; rw [hN]; omega⟩, rfl⟩
  refine ⟨t, flush4_2 t, ?_⟩
  rw [mem_blk4]
  obtain ⟨-, -, -, -, e4, e5⟩ := idx_facts4 t
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- After the region the output array is the scaled table: each row of the input table times its entry of the
    column. -/
theorem region4_value (c : Dev nD) :
    ((dat4 (F := Ideal) V c).arrAt 2 cfg4.N : S100000x128.Idx → EReal)
      = scaled false (V c main_v29) (V c main_v11) :=
  (dat4 (F := Ideal) V c).arrAt_eq_of_cover 2 (scaled false (V c main_v29) (V c main_v11))
    (fun t _ => flushed4_eq V c t) cover4

end Cert.KernelIdeal.Hand
end
-- ==== Proof.LibPlainDot.lean ====
/-
  GENERAL LEMMAS: the product of an [M, K] table by a [K, N] table, contracting the left operand's last axis with the
  right operand's first (dimension numbers [1] x [0], no batch axes), read at an index over the extended reals: element
  (p, q) is the sum over k : Fin K of l[p, k] · r[k, q]. Stated for the matrix unit's product into a zero accumulator and
  for the host's dot_general.
-/
import Idealize.ShloMosaic.PureOps.Ideal.Laws
import Idealize.ShloMosaic.Lib.ValueIdx

noncomputable section

namespace Cert.PlainDot

open Idealize.ShloMosaic Idealize.ShloMosaic.ValueIdx

/-- The contraction sum of a plain dot at (p, q), re-indexed by k : Fin K. -/
theorem contr_sum {M K N : ℕ} (l : (⟨2, ![M, K]⟩ : Shape).Idx → EReal) (r : (⟨2, ![K, N]⟩ : Shape).Idx → EReal)
    (p : Fin M) (q : Fin N) :
    (∑ k : (DotDims.plain M K N).contr.Idx,
        l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have l0 : ∀ κ : (DotDims.plain M K N).contr.Idx, ((DotDims.plain M K N).lhsIdx (ix2 p q) κ 0).val = p.val :=
    fun κ => rfl
  have l1 : ∀ κ : (DotDims.plain M K N).contr.Idx,
      ((DotDims.plain M K N).lhsIdx (ix2 p q) κ 1).val = (κ ⟨0, Nat.one_pos⟩).val :=
    fun κ => (DotDims.plain M K N).lhsIdx_val_of_single rfl (ix2 p q) κ
  have r0 : ∀ κ : (DotDims.plain M K N).contr.Idx,
      ((DotDims.plain M K N).rhsIdx (ix2 p q) κ 0).val = (κ ⟨0, Nat.one_pos⟩).val :=
    fun κ => (DotDims.plain M K N).rhsIdx_val_of_single rfl (ix2 p q) κ
  have r1 : ∀ κ : (DotDims.plain M K N).contr.Idx, ((DotDims.plain M K N).rhsIdx (ix2 p q) κ 1).val = q.val :=
    fun κ => rfl
  have el : (DotDims.plain M K N).lhsIdx (ix2 p q) ((contrEquiv1 (DotDims.plain M K N) K rfl rfl).symm k) = ix2 p k :=
    funext fun a => Fin.ext (by
      match a with
      | ⟨0, _⟩ => exact l0 _
      | ⟨1, _⟩ => exact (l1 _).trans hk)
  have er : (DotDims.plain M K N).rhsIdx (ix2 p q) ((contrEquiv1 (DotDims.plain M K N) K rfl rfl).symm k) = ix2 k q :=
    funext fun a => Fin.ext (by
      match a with
      | ⟨0, _⟩ => exact (r0 _).trans hk
      | ⟨1, _⟩ => exact r1 _)
  rw [el, er]

/-- The matrix unit's product into the zero accumulator, at (p, q). -/
theorem matmul_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact contr_sum l r p q

/-- The host's dot_general, at (p, q). -/
theorem dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact contr_sum l r p q

end Cert.PlainDot

end
-- ==== Proof.RegionConv1.lean ====
/-
  The first layer's row-wise map, block by block and then as one array.

  The region walks the 20 blocks of 5000 rows of a [100000, 128] table g. At block t it stores, at (p, q),
      max ((Σ_k (g[5000 t + p, k] · n[5000 t + p, 0]) · W[k, q]) + b[0, q]) z,
  with n the [100000, 1] column of row factors, W the [128, 128] weights, b the [1, 128] bias row and z the zero word's
  reading. The rows' blocks tile the array, so the output array after the region is `conv true g n W b`.
-/
import proofs.«402026_j9818295239119_1_alg».proof.Proof.Gen.KernelIdeal.Frame
import proofs.«402026_j9818295239119_1_alg».proof.Proof.ConvMaps
import proofs.«402026_j9818295239119_1_alg».proof.Proof.LibColumn
import proofs.«402026_j9818295239119_1_alg».proof.Proof.LibPlainDot
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GraphConv Idealize.ShloMosaic.StableHlo.Predicate Idealize.ShloMosaic.ValueIdx

variable (V : (c : Dev nD) → (b : Ref sig .tc) → Buf (Elt Ideal) ((c : Thread nD τ).loc b))

/-- The zero offsets of a whole-buffer access, as a constant function. -/
theorem hz1 : (![0, 0] : Fin 2 → Nat) = fun _ => 0 := funext fun a => by fin_cases a <;> rfl

/-- The two spellings of a rank-2 index from its coordinates agree. -/
theorem ij_ix2_1 {n m : Nat} (p : Fin n) (q : Fin m) : ij p q = ix2 p q := by
  funext a; match a with | ⟨0, _⟩ => rfl | ⟨1, _⟩ => rfl

/-- So do the two spellings of a column's index … -/
theorem ixP_ix2_1 {n : Nat} (p : Fin n) : ixP p = ix2 p (0 : Fin 1) := by
  funext a; match a with | ⟨0, _⟩ => rfl | ⟨1, _⟩ => rfl

/-- … and of a row's. -/
theorem i1q_ix2_1 {m : Nat} (q : Fin m) : i1q q = ix2 (0 : Fin 1) q := by
  funext a; match a with | ⟨0, _⟩ => rfl | ⟨1, _⟩ => rfl

/-- The product's dimension numbers are the plain ones: the left operand's last axis against the right operand's first. -/
theorem dot1_plain : dot_S5000x128_S128x128_S5000x128_1_0_0_1_n_n = DotDims.plain 5000 128 128 := rfl

/-- Entry (p, q) of the block the body stores: row p of the table block scaled by its column entry, multiplied into
    column q of the weights, the bias entry q added, clamped at the zero word's reading. -/
theorem pay1_apply (x0 : Vec Ideal S5000x128 .f32) (x1 : Vec Ideal S5000x1 .f32) (x2 : Vec Ideal S128x128 .f32)
    (x3 : Vec Ideal S1x128 .f32) (p : Fin 5000) (q : Fin 128) :
    (k1_pay1 (F := Ideal) x0 x1 x2 x3) (ij p q)
      = max ((∑ k : Fin 128, (x0 (ij p k) * x1 (ixP p)) * x2 (ij k q)) + x3 (i1q q)) z := by
  unfold k1_pay1
  simp only [shapeCast_self]
  rw [ij_ix2_1 p q]
  -- the clamp, the sum with the bias row, then the product, each read at the index
  refine (maximumf_apply _ _ _).trans ?_
  refine congrArg₂ max ?_ rfl
  refine (addf_apply _ _ _).trans ?_
  refine congrArg₂ (· + ·) ?_ ?_
  · rw [dot1_plain]
    refine (Cert.PlainDot.matmul_zero_apply none _ _ p q).trans ?_
    refine Finset.sum_congr rfl fun k _ => ?_
    rw [ij_ix2_1 p k, ij_ix2_1 k q, ixP_ix2_1 p]
    show (x0 (ix2 p k) * broadcastTo S5000x128 x1 broadcasts_S5000x1_S5000x128 (ix2 p k)) * x2 (ix2 k q) = _
    rw [Cert.Column.broadcastTo_a1_ab_apply]
  · rw [i1q_ix2_1]
    exact broadcastTo_1b_ab_apply x3 _ p q

/-- The printed index maps, decided over the grid: the table, the column and the output move down one block of rows per
    point; the weights and the bias row stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block is row 5000 t + p of the table. -/
def row1 (t : Fin cfg1.N) (p : Fin 5000) : Fin 100000 :=
  ⟨t.val * 5000 + p.val, by have h : t.val < grid1.N := t.isLt; rw [N_1] at h; have := p.isLt; omega⟩

/-- The table's block at point t: its entry (p, k) is the table's entry (5000 t + p, k). -/
theorem blk1_0 (c : Dev nD) (t : Fin cfg1.N) (p : Fin 5000) (k : Fin 128) :
    (iblk1 (F := Ideal) V c 0 t : Vec Ideal S5000x128 .f32) (ij p k) = V c main_v22 (ij (row1 t p) k) := by
  obtain ⟨e0, e1, -⟩ := idx_facts1 t
  unfold iblk1
  rw [View.read_apply]
  show V c main_v22 _ = V c main_v22 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The column's block at point t: its entry p is the column's entry 5000 t + p. -/
theorem blk1_1 (c : Dev nD) (t : Fin cfg1.N) (p : Fin 5000) :
    (iblk1 (F := Ideal) V c 1 t : Vec Ideal S5000x1 .f32) (ixP p) = V c main_v14 (ixP (row1 t p)) := by
  obtain ⟨-, -, e0, e1, -⟩ := idx_facts1 t
  unfold iblk1
  rw [View.read_apply]
  show V c main_v14 _ = V c main_v14 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- The weights' block at every point is the whole weight table. -/
theorem blk1_2 (c : Dev nD) (t : Fin cfg1.N) (k : Fin 128) (q : Fin 128) :
    (iblk1 (F := Ideal) V c 2 t : Vec Ideal S128x128 .f32) (ij k q) = V c main_arg3 (ij k q) := by
  obtain ⟨-, -, -, -, e0, e1, -⟩ := idx_facts1 t
  unfold iblk1
  rw [View.read_apply]
  show V c main_arg3 _ = V c main_arg3 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias row's block at every point is the whole row. -/
theorem blk1_3 (c : Dev nD) (t : Fin cfg1.N) (q : Fin 128) :
    (iblk1 (F := Ideal) V c 3 t : Vec Ideal S1x128 .f32) (i1q q) = V c main_v15 (i1q q) := by
  obtain ⟨-, -, -, -, -, -, e0, e1, -⟩ := idx_facts1 t
  unfold iblk1
  rw [View.read_apply]
  show V c main_v15 _ = V c main_v15 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- WHAT POINT t WRITES BACK is block t of the layer's output table. -/
theorem flushed1_eq (c : Dev nD) (t : Fin cfg1.N) :
    (dat1 (F := Ideal) V c).flushed 4 t
      = ((cfg1.win 4).blk t).view.read (Elt Ideal) (conv true (V c main_v22) (V c main_v14) (V c main_arg3) (V c main_v15)) := by
  show (cfg1.win 4).cut (grid1.coords t) ((dat1 (F := Ideal) V c).after 4 t) = _
  rw [after1_4]
  unfold out1_4
  rw [View.canon_unit_zero hz1]
  simp only [View.ld_unit_zero (S := S5000x128) hz1, View.ld_unit_zero (S := S5000x1) hz1,
    View.ld_unit_zero (S := S128x128) hz1, View.ld_unit_zero (S := S1x128) hz1]
  funext j
  obtain ⟨p, q, rfl⟩ : ∃ (p : Fin 5000) (q : Fin 128), j = ij p q := ⟨j 0, j 1, (ij_eta j).symm⟩
  show (k1_pay1 (F := Ideal) (iblk1 V c 0 t) (iblk1 V c 1 t) (iblk1 V c 2 t) (iblk1 V c 3 t)) (ij p q)
      = conv true (V c main_v22) (V c main_v14) (V c main_arg3) (V c main_v15) (((cfg1.win 4).blk t).view.emb (ij p q))
  -- the output block's entry (p, q) sits at (5000 t + p, q) of the array
  have hemb : ((cfg1.win 4).blk t).view.emb (ij p q) = ij (row1 t p) q := by
    obtain ⟨-, -, -, -, -, -, -, -, e0, e1⟩ := idx_facts1 t
    funext a
    apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  rw [hemb, conv_ij]
  refine (pay1_apply _ _ _ _ p q).trans ?_
  unfold convAt
  rw [if_pos rfl]
  simp only [blk1_0, blk1_1, blk1_2, blk1_3]

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v23).slice (win1_4.rect t)).set ↔ _
  rw [View.set_slice_whole, Rect.mem_set_unit]
  exact Iff.rfl

/-- Every row of the array lies in the block of the point its number divided by 5000 names. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; rw [hN]; omega⟩
  refine ⟨t, flush1_4 t, ?_⟩
  rw [mem_blk1]
  obtain ⟨-, -, -, -, -, -, -, -, e0, e1⟩ := idx_facts1 t
  have ht : t.val = (i 0).val / 5000 := rfl
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE ARRAY after the region: the layer's output table of the arrays the region found. -/
theorem region1_value (c : Dev nD) :
    ((dat1 (F := Ideal) V c).arrAt 4 cfg1.N : S100000x128.Idx → EReal)
      = conv true (V c main_v22) (V c main_v14) (V c main_arg3) (V c main_v15) :=
  (dat1 (F := Ideal) V c).arrAt_eq_of_cover 4 (conv true (V c main_v22) (V c main_v14) (V c main_arg3) (V c main_v15))
    (fun t _ => flushed1_eq V c t) cover1

end Cert.KernelIdeal.Hand
end
-- ==== Proof.RegionConv3.lean ====
/-
  The second layer's row-wise map, block by block and then as one array.

  The region walks the 20 blocks of 5000 rows of a [100000, 128] table g. At block t it stores, at (p, q),
      max ((Σ_k (g[5000 t + p, k] · n[5000 t + p, 0]) · W[k, q]) + b[0, q]) z,
  with n the [100000, 1] column of row factors, W the [128, 128] weights, b the [1, 128] bias row and z the zero word's
  reading. The rows' blocks tile the array, so the output array after the region is `conv true g n W b`.
-/
import proofs.«402026_j9818295239119_1_alg».proof.Proof.Gen.KernelIdeal.Frame
import proofs.«402026_j9818295239119_1_alg».proof.Proof.ConvMaps
import proofs.«402026_j9818295239119_1_alg».proof.Proof.LibColumn
import proofs.«402026_j9818295239119_1_alg».proof.Proof.LibPlainDot
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GraphConv Idealize.ShloMosaic.StableHlo.Predicate Idealize.ShloMosaic.ValueIdx

variable (V : (c : Dev nD) → (b : Ref sig .tc) → Buf (Elt Ideal) ((c : Thread nD τ).loc b))

/-- The zero offsets of a whole-buffer access, as a constant function. -/
theorem hz3 : (![0, 0] : Fin 2 → Nat) = fun _ => 0 := funext fun a => by fin_cases a <;> rfl

/-- The two spellings of a rank-2 index from its coordinates agree. -/
theorem ij_ix2_3 {n m : Nat} (p : Fin n) (q : Fin m) : ij p q = ix2 p q := by
  funext a; match a with | ⟨0, _⟩ => rfl | ⟨1, _⟩ => rfl

/-- So do the two spellings of a column's index … -/
theorem ixP_ix2_3 {n : Nat} (p : Fin n) : ixP p = ix2 p (0 : Fin 1) := by
  funext a; match a with | ⟨0, _⟩ => rfl | ⟨1, _⟩ => rfl

/-- … and of a row's. -/
theorem i1q_ix2_3 {m : Nat} (q : Fin m) : i1q q = ix2 (0 : Fin 1) q := by
  funext a; match a with | ⟨0, _⟩ => rfl | ⟨1, _⟩ => rfl

/-- The product's dimension numbers are the plain ones: the left operand's last axis against the right operand's first. -/
theorem dot3_plain : dot_S5000x128_S128x128_S5000x128_1_0_0_1_n_n = DotDims.plain 5000 128 128 := rfl

/-- Entry (p, q) of the block the body stores: row p of the table block scaled by its column entry, multiplied into
    column q of the weights, the bias entry q added, clamped at the zero word's reading. -/
theorem pay3_apply (x0 : Vec Ideal S5000x128 .f32) (x1 : Vec Ideal S5000x1 .f32) (x2 : Vec Ideal S128x128 .f32)
    (x3 : Vec Ideal S1x128 .f32) (p : Fin 5000) (q : Fin 128) :
    (k3_pay1 (F := Ideal) x0 x1 x2 x3) (ij p q)
      = max ((∑ k : Fin 128, (x0 (ij p k) * x1 (ixP p)) * x2 (ij k q)) + x3 (i1q q)) z := by
  unfold k3_pay1
  simp only [shapeCast_self]
  rw [ij_ix2_3 p q]
  -- the clamp, the sum with the bias row, then the product, each read at the index
  refine (maximumf_apply _ _ _).trans ?_
  refine congrArg₂ max ?_ rfl
  refine (addf_apply _ _ _).trans ?_
  refine congrArg₂ (· + ·) ?_ ?_
  · rw [dot3_plain]
    refine (Cert.PlainDot.matmul_zero_apply none _ _ p q).trans ?_
    refine Finset.sum_congr rfl fun k _ => ?_
    rw [ij_ix2_3 p k, ij_ix2_3 k q, ixP_ix2_3 p]
    show (x0 (ix2 p k) * broadcastTo S5000x128 x1 broadcasts_S5000x1_S5000x128 (ix2 p k)) * x2 (ix2 k q) = _
    rw [Cert.Column.broadcastTo_a1_ab_apply]
  · rw [i1q_ix2_3]
    exact broadcastTo_1b_ab_apply x3 _ p q

/-- The printed index maps, decided over the grid: the table, the column and the output move down one block of rows per
    point; the weights and the bias row stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of point t's block is row 5000 t + p of the table. -/
def row3 (t : Fin cfg3.N) (p : Fin 5000) : Fin 100000 :=
  ⟨t.val * 5000 + p.val, by have h : t.val < grid3.N := t.isLt; rw [N_3] at h; have := p.isLt; omega⟩

/-- The table's block at point t: its entry (p, k) is the table's entry (5000 t + p, k). -/
theorem blk3_0 (c : Dev nD) (t : Fin cfg3.N) (p : Fin 5000) (k : Fin 128) :
    (iblk3 (F := Ideal) V c 0 t : Vec Ideal S5000x128 .f32) (ij p k) = V c main_v28 (ij (row3 t p) k) := by
  obtain ⟨e0, e1, -⟩ := idx_facts3 t
  unfold iblk3
  rw [View.read_apply]
  show V c main_v28 _ = V c main_v28 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- The column's block at point t: its entry p is the column's entry 5000 t + p. -/
theorem blk3_1 (c : Dev nD) (t : Fin cfg3.N) (p : Fin 5000) :
    (iblk3 (F := Ideal) V c 1 t : Vec Ideal S5000x1 .f32) (ixP p) = V c main_v14 (ixP (row3 t p)) := by
  obtain ⟨-, -, e0, e1, -⟩ := idx_facts3 t
  unfold iblk3
  rw [View.read_apply]
  show V c main_v14 _ = V c main_v14 _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 1 + 1 * 0 = 0; rw [e1]

/-- The weights' block at every point is the whole weight table. -/
theorem blk3_2 (c : Dev nD) (t : Fin cfg3.N) (k : Fin 128) (q : Fin 128) :
    (iblk3 (F := Ideal) V c 2 t : Vec Ideal S128x128 .f32) (ij k q) = V c main_arg5 (ij k q) := by
  obtain ⟨-, -, -, -, e0, e1, -⟩ := idx_facts3 t
  unfold iblk3
  rw [View.read_apply]
  show V c main_arg5 _ = V c main_arg5 _
  congr 1
  funext a
  apply Fin.ext
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- The bias row's block at every point is the whole row. -/
theorem blk3_3 (c : Dev nD) (t : Fin cfg3.N) (q : Fin 128) :
    (iblk3 (F := Ideal) V c 3 t : Vec Ideal S1x128 .f32) (i1q q) = V c main_v16 (i1q q) := by
  obtain ⟨-, -, -, -, -, -, e0, e1, -⟩ := idx_facts3 t
  unfold iblk3
  rw [View.read_apply]
  show V c main_v16 _ = V c main_v16 _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- WHAT POINT t WRITES BACK is block t of the layer's output table. -/
theorem flushed3_eq (c : Dev nD) (t : Fin cfg3.N) :
    (dat3 (F := Ideal) V c).flushed 4 t
      = ((cfg3.win 4).blk t).view.read (Elt Ideal) (conv true (V c main_v28) (V c main_v14) (V c main_arg5) (V c main_v16)) := by
  show (cfg3.win 4).cut (grid3.coords t) ((dat3 (F := Ideal) V c).after 4 t) = _
  rw [after3_4]
  unfold out3_4
  rw [View.canon_unit_zero hz3]
  simp only [View.ld_unit_zero (S := S5000x128) hz3, View.ld_unit_zero (S := S5000x1) hz3,
    View.ld_unit_zero (S := S128x128) hz3, View.ld_unit_zero (S := S1x128) hz3]
  funext j
  obtain ⟨p, q, rfl⟩ : ∃ (p : Fin 5000) (q : Fin 128), j = ij p q := ⟨j 0, j 1, (ij_eta j).symm⟩
  show (k3_pay1 (F := Ideal) (iblk3 V c 0 t) (iblk3 V c 1 t) (iblk3 V c 2 t) (iblk3 V c 3 t)) (ij p q)
      = conv true (V c main_v28) (V c main_v14) (V c main_arg5) (V c main_v16) (((cfg3.win 4).blk t).view.emb (ij p q))
  -- the output block's entry (p, q) sits at (5000 t + p, q) of the array
  have hemb : ((cfg3.win 4).blk t).view.emb (ij p q) = ij (row3 t p) q := by
    obtain ⟨-, -, -, -, -, -, -, -, e0, e1⟩ := idx_facts3 t
    funext a
    apply Fin.ext
    match a with
    | ⟨0, _⟩ => show win3_4.index t (0 : Fin 2) * 5000 + 1 * p.val = t.val * 5000 + p.val; rw [e0]; omega
    | ⟨1, _⟩ => show win3_4.index t (1 : Fin 2) * 128 + 1 * q.val = q.val; rw [e1]; omega
  rw [hemb, conv_ij]
  refine (pay3_apply _ _ _ _ p q).trans ?_
  unfold convAt
  rw [if_pos rfl]
  simp only [blk3_0, blk3_1, blk3_2, blk3_3]

/-- An index of the array is in point t's block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v29).slice (win3_4.rect t)).set ↔ _
  rw [View.set_slice_whole, Rect.mem_set_unit]
  exact Iff.rfl

/-- Every row of the array lies in the block of the point its number divided by 5000 names. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; rw [hN]; omega⟩
  refine ⟨t, flush3_4 t, ?_⟩
  rw [mem_blk3]
  obtain ⟨-, -, -, -, -, -, -, -, e0, e1⟩ := idx_facts3 t
  have ht : t.val = (i 0).val / 5000 := rfl
  intro a
  match a with
  | ⟨0, _⟩ =>
    show win3_4.index t (0 : Fin 2) * 5000 ≤ (i 0).val ∧ (i 0).val < win3_4.index t (0 : Fin 2) * 5000 + 5000
    rw [e0, ht]; omega
  | ⟨1, _⟩ =>
    show win3_4.index t (1 : Fin 2) * 128 ≤ (i 1).val ∧ (i 1).val < win3_4.index t (1 : Fin 2) * 128 + 128
    rw [e1]; omega

/-- THE ARRAY after the region: the layer's output table of the arrays the region found. -/
theorem region3_value (c : Dev nD) :
    ((dat3 (F := Ideal) V c).arrAt 4 cfg3.N : S100000x128.Idx → EReal)
      = conv true (V c main_v28) (V c main_v14) (V c main_arg5) (V c main_v16) :=
  (dat3 (F := Ideal) V c).arrAt_eq_of_cover 4 (conv true (V c main_v28) (V c main_v14) (V c main_arg5) (V c main_v16))
    (fun t _ => flushed3_eq V c t) cover3

end Cert.KernelIdeal.Hand
end
-- ==== Proof.RegionConv5.lean ====
/-
  The third layer's row-wise map, block by block and then as one array.

  The region walks the 20 blocks of 5000 rows of a [100000, 128] table g. At block t it stores, at (p, q),
      (Σ_k (g[5000 t + p, k] · n[5000 t + p, 0]) · W[k, q]) + b[0, q],
  with n the [100000, 1] column of row factors, W the [128, 47] weights and b the [1, 47] bias row; this layer does not
  clamp. The rows' blocks tile the array, so the output array after the region is `conv false g n W b`.
-/
import proofs.«402026_j9818295239119_1_alg».proof.Proof.Gen.KernelIdeal.Frame
import proofs.«402026_j9818295239119_1_alg».proof.Proof.ConvMaps
import proofs.«402026_j9818295239119_1_alg».proof.Proof.LibColumn
import proofs.«402026_j9818295239119_1_alg».proof.Proof.LibPlainDot
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.GraphConv Idealize.ShloMosaic.StableHlo.Predicate Idealize.ShloMosaic.ValueIdx

variable (V : (c : Dev nD) → (b : Ref sig .tc) → Buf (Elt Ideal) ((c : Thread nD τ).loc b))

/-- The zero offsets of a whole-buffer access, as a constant function. -/
theorem hz5 : (![0, 0] : Fin 2 → Nat) = fun _ => 0 := funext fun a => by fin_cases a <;> rfl

/-- The two spellings of a rank-2 index from its coordinates agree. -/
theorem ij_ix2_5 {n m : Nat} (p : Fin n) (q : Fin m) : ij p q = ix2 p q := by
  funext a; match a with | ⟨0, _⟩ => rfl | ⟨1, _⟩ => rfl

/-- So do the two spellings of a column's index … -/
theorem ixP_ix2_5 {n : Nat} (p : Fin n) : ixP p = ix2 p (0 : Fin 1) := by
  funext a; match a with | ⟨0, _⟩ => rfl | ⟨1, _⟩ => rfl

/-- … and of a row's. -/
theorem i1q_ix2_5 {m : Nat} (q : Fin m) : i1q q = ix2 (0 : Fin 1) q := by
  funext a; match a with | ⟨0, _⟩ => rfl | ⟨1, _⟩ => rfl

/-- The product's dimension numbers are the plain ones: the left operand's last axis against the right operand's first. -/
theorem dot5_plain : dot_S5000x128_S128x47_S5000x47_1_0_0_1_n_n = DotDims.plain 5000 128 47 := rfl

/-- Entry (p, q) of the block the body stores: row p of the table block scaled by its column entry, multiplied into
    column q of the weights, the bias entry q added. -/
theorem pay5_apply (x0 : Vec Ideal S5000x128 .f32) (x1 : Vec Ideal S5000x1 .f32) (x2 : Vec Ideal S128x47 .f32)
    (x3 : Vec Ideal S1x47 .f32) (p : Fin 5000) (q : Fin 47) :
    (k5_pay1 (F := Ideal) x0 x1 x2 x3) (ij p q)
      = (∑ k : Fin 128, (x0 (ij p k) * x1 (ixP p)) * x2 (ij k q)) + x3 (i1q q) := by
  unfold k5_pay1
  simp only [shapeCast_self]
  rw [ij_ix2_5 p q]
  -- the sum with the bias row, then the product, each read at the index
  refine (addf_apply _ _ _).trans ?_
  refine congrArg₂ (· + ·) ?_ ?_
  · rw [dot5_plain]
    refine (Cert.PlainDot.matmul_zero_apply none _ _ p q).trans ?_
    refine Finset.sum_congr rfl fun k _ => ?_
    rw [ij_ix2_5 p k, ij_ix2_5 k q, ixP_ix2_5 p]
    show (x0 (ix2 p k) * broadcastTo S5000x128 x1 broadcasts_S5000x1_S5000x128 (ix2 p k)) * x2 (ix2 k q) = _
    rw [Cert.Column.broadcastTo_a1_ab_apply]
  · rw [i1q_ix2_5]
    exact broadcastTo_1b_ab_apply x3 _ p q

/-- The printed index maps, decided over the grid: the table, the column and the output move down one block of rows per
    point; the weights and the bias row stay. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block is row 5000 t + p of the table. -/
def row5 (t : Fin cfg5.N) (p : Fin 5000) : Fin 100000 :=
  ⟨t.val * 5000 + p.val, by have h : t.val < grid5.N := t.isLt; rw [N_5] at h; have := p.isLt; omega⟩

/-- The table's block at point t: its entry (p, k) is the table's entry (5000 t + p, k). -/
theorem blk5_0 (c : Dev nD) (t : Fin cfg5.N) (p : Fin 5000) (k : Fin 128) :
    (iblk5 (F := Ideal) V c 0 t : Vec Ideal S5000x128 .f32) (ij p k) = V c main_v34 (ij (row5 t p) k) := by
  obtain ⟨e0, e1, -⟩ := idx_facts5 t
  unfold iblk5
  rw [View.read_apply]
  show V c main_v34 _ = V c main_v34 _
  congr 1
  funext a
  apply Fin.ext
  match a with
  | ⟨0, _⟩ => show win5_0.index t (0 : Fin 2) * 5000 + 1 * p.val = t.val * 5000 + p.val; rw [e0]; omega
  | ⟨1, _⟩ => show win5_0.index t (1 : Fin 2) * 128 + 1 * k.val = k.val; rw [e1]; omega

/-- The column's block at point t: its entry p is the column's entry 5000 t + p. -/
theorem blk5_1 (c : Dev nD) (t : Fin cfg5.N) (p : Fin 5000) :
    (iblk5 (F := Ideal) V c 1 t : Vec Ideal S5000x1 .f32) (ixP p) = V c main_v14 (ixP (row5 t p)) := by
  obtain ⟨-, -, e0, e1, -⟩ := idx_facts5 t
  unfold iblk5
  rw [View.read_apply]
  show V c main_v14 _ = V c main_v14 _
  congr 1
  funext a
  apply Fin.ext
  match a with
  | ⟨0, _⟩ => show win5_1.index t (0 : Fin 2) * 5000 + 1 * p.val = t.val * 5000 + p.val; rw [e0]; omega
  | ⟨1, _⟩ => show win5_1.index t (1 : Fin 2) * 1 + 1 * 0 = 0; rw [e1]

/-- The weights' block at every point is the whole weight table. -/
theorem blk5_2 (c : Dev nD) (t : Fin cfg5.N) (k : Fin 128) (q : Fin 47) :
    (iblk5 (F := Ideal) V c 2 t : Vec Ideal S128x47 .f32) (ij k q) = V c main_arg7 (ij k q) := by
  obtain ⟨-, -, -, -, e0, e1, -⟩ := idx_facts5 t
  unfold iblk5
  rw [View.read_apply]
  show V c main_arg7 _ = V c main_arg7 _
  congr 1
  funext a
  apply Fin.ext
  match a with
  | ⟨0, _⟩ => show win5_2.index t (0 : Fin 2) * 128 + 1 * k.val = k.val; rw [e0]; omega
  | ⟨1, _⟩ => show win5_2.index t (1 : Fin 2) * 47 + 1 * q.val = q.val; rw [e1]; omega

/-- The bias row's block at every point is the whole row. -/
theorem blk5_3 (c : Dev nD) (t : Fin cfg5.N) (q : Fin 47) :
    (iblk5 (F := Ideal) V c 3 t : Vec Ideal S1x47 .f32) (i1q q) = V c main_v17 (i1q q) := by
  obtain ⟨-, -, -, -, -, -, e0, e1, -⟩ := idx_facts5 t
  unfold iblk5
  rw [View.read_apply]
  show V c main_v17 _ = V c main_v17 _
  congr 1
  funext a
  apply Fin.ext
  match a with
  | ⟨0, _⟩ => show win5_3.index t (0 : Fin 2) * 1 + 1 * 0 = 0; rw [e0]
  | ⟨1, _⟩ => show win5_3.index t (1 : Fin 2) * 47 + 1 * q.val = q.val; rw [e1]; omega

/-- WHAT POINT t WRITES BACK is block t of the layer's output table. -/
theorem flushed5_eq (c : Dev nD) (t : Fin cfg5.N) :
    (dat5 (F := Ideal) V c).flushed 4 t
      = ((cfg5.win 4).blk t).view.read (Elt Ideal) (conv false (V c main_v34) (V c main_v14) (V c main_arg7) (V c main_v17)) := by
  show (cfg5.win 4).cut (grid5.coords t) ((dat5 (F := Ideal) V c).after 4 t) = _
  rw [after5_4]
  unfold out5_4
  rw [View.canon_unit_zero hz5]
  simp only [View.ld_unit_zero (S := S5000x128) hz5, View.ld_unit_zero (S := S5000x1) hz5,
    View.ld_unit_zero (S := S128x47) hz5, View.ld_unit_zero (S := S1x47) hz5]
  funext j
  obtain ⟨p, q, rfl⟩ : ∃ (p : Fin 5000) (q : Fin 47), j = ij p q := ⟨j 0, j 1, (ij_eta j).symm⟩
  show (k5_pay1 (F := Ideal) (iblk5 V c 0 t) (iblk5 V c 1 t) (iblk5 V c 2 t) (iblk5 V c 3 t)) (ij p q)
      = conv false (V c main_v34) (V c main_v14) (V c main_arg7) (V c main_v17) (((cfg5.win 4).blk t).view.emb (ij p q))
  -- the output block's entry (p, q) sits at (5000 t + p, q) of the array
  have hemb : ((cfg5.win 4).blk t).view.emb (ij p q) = ij (row5 t p) q := by
    obtain ⟨-, -, -, -, -, -, -, -, e0, e1⟩ := idx_facts5 t
    funext a
    apply Fin.ext
    match a with
    | ⟨0, _⟩ => show win5_4.index t (0 : Fin 2) * 5000 + 1 * p.val = t.val * 5000 + p.val; rw [e0]; omega
    | ⟨1, _⟩ => show win5_4.index t (1 : Fin 2) * 47 + 1 * q.val = q.val; rw [e1]; omega
  rw [hemb, conv_ij]
  refine (pay5_apply _ _ _ _ p q).trans ?_
  unfold convAt
  rw [if_neg Bool.false_ne_true]
  simp only [blk5_0, blk5_1, blk5_2, blk5_3]

/-- An index of the array is in point t's block iff each coordinate is in the block's range on its axis. -/
theorem mem_blk5 (t : Fin cfg5.N) (i : S100000x47.Idx) :
    i ∈ ((cfg5.win 4).blk t).view.set ↔ ∀ a : Fin 2, win5_4.index t a * S5000x47.size a ≤ (i a).val
      ∧ (i a).val < win5_4.index t a * S5000x47.size a + S5000x47.size a := by
  show i ∈ ((View.whole main_v35).slice (win5_4.rect t)).set ↔ _
  rw [View.set_slice_whole, Rect.mem_set_unit]
  exact Iff.rfl

/-- Every row of the array lies in the block of the point its number divided by 5000 names. -/
theorem cover5 (i : S100000x47.Idx) :
    ∃ t : Fin cfg5.N, (cfg5.win 4).flush t = true ∧ i ∈ ((cfg5.win 4).blk t).view.set := by
  have hi0 : (i 0).val < 100000 := (i 0).isLt
  have hi1 : (i 1).val < 47 := (i 1).isLt
  have hN : grid5.N = 20 := N_5
  let t : Fin cfg5.N := ⟨(i 0).val / 5000, by show (i 0).val / 5000 < grid5.N; rw [hN]; omega⟩
  refine ⟨t, flush5_4 t, ?_⟩
  rw [mem_blk5]
  obtain ⟨-, -, -, -, -, -, -, -, e0, e1⟩ := idx_facts5 t
  have ht : t.val = (i 0).val / 5000 := rfl
  intro a
  match a with
  | ⟨0, _⟩ =>
    show win5_4.index t (0 : Fin 2) * 5000 ≤ (i 0).val ∧ (i 0).val < win5_4.index t (0 : Fin 2) * 5000 + 5000
    rw [e0, ht]; omega
  | ⟨1, _⟩ =>
    show win5_4.index t (1 : Fin 2) * 47 ≤ (i 1).val ∧ (i 1).val < win5_4.index t (1 : Fin 2) * 47 + 47
    rw [e1]; omega

/-- THE ARRAY after the region: the layer's output table of the arrays the region found. -/
theorem region5_value (c : Dev nD) :
    ((dat5 (F := Ideal) V c).arrAt 4 cfg5.N : S100000x47.Idx → EReal)
      = conv false (V c main_v34) (V c main_v14) (V c main_arg7) (V c main_v17) :=
  (dat5 (F := Ideal) V c).arrAt_eq_of_cover 4 (conv false (V c main_v34) (V c main_v14) (V c main_arg7) (V c main_v17))
    (fun t _ => flushed5_eq V c t) cover5

end Cert.KernelIdeal.Hand
end
-- ==== Proof.HostChain.lean ====
/-
  The idealized kernel's result array as the three layers of ConvMaps' `net`.

  The program is six regions among stretches of host operations. Its buffer contents at every boundary are a fold from
  the launch memory; this module reads that fold at the buffers that matter. Before the first region the host computes,
  from the edges' source and destination ids, the two columns of degree^(-1/2) (`normCol`) and casts the three bias
  vectors to rows. Between a scaling region and a matrix-product region it looks the scaled rows up at the source ids
  (filling where an id is no row) and adds them up at the destination ids (`aggFill`). Every other buffer a later region
  reads is left alone in between, so it still holds what the first stretches wrote. Each region's output array is its
  row-wise map of its input arrays (the six region modules). Composing these gives `net` with `aggFill` as the
  aggregation.
-/
import proofs.«402026_j9818295239119_1_alg».proof.Proof.Gen.KernelIdeal.Frame
import proofs.«402026_j9818295239119_1_alg».proof.Proof.ConvMaps
import proofs.«402026_j9818295239119_1_alg».proof.Proof.RegionScale0
import proofs.«402026_j9818295239119_1_alg».proof.Proof.RegionScale2
import proofs.«402026_j9818295239119_1_alg».proof.Proof.RegionScale4
import proofs.«402026_j9818295239119_1_alg».proof.Proof.RegionConv1
import proofs.«402026_j9818295239119_1_alg».proof.Proof.RegionConv3
import proofs.«402026_j9818295239119_1_alg».proof.Proof.RegionConv5
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen Cert.GraphConv

section AnyFloats

variable {F : FTy → Type} [FloatOps F]
variable (m : (ℓ : Loc nD τ sig) → Buf (Elt F) ℓ) (ρ : Dev nD → PrngReg) (c : Dev nD)

/-! ## A value written through a typed reference and read back through it is the value -/

theorem ofBuf_toBuf {T : BufTy} {Val : EltTy → Type} (x : TRef sig T) (v : T.Contents Val) : x.ofBuf (x.toBuf v) = v := by
  obtain ⟨r, h, h1, h2⟩ := x
  subst h
  rfl

/-! A value read from, or written to, a buffer of a literal type through a typed reference of that type is the value. -/
section Atoms
variable {Val : EltTy → Type}
theorem ofBuf_arg1 (p1 : main_arg1.ty = ⟨S1600000, .i32⟩) (p2 p3) (v : main_arg1.ty.Contents Val) :
    (TRef.of (T := ⟨S1600000, .i32⟩) main_arg1 p1 p2 p3).ofBuf v = v := rfl
theorem ofBuf_v18 (p1 : main_v18.ty = ⟨S100000x128, .f32⟩) (p2 p3) (v : main_v18.ty.Contents Val) :
    (TRef.of (T := ⟨S100000x128, .f32⟩) main_v18 p1 p2 p3).ofBuf v = v := rfl
theorem ofBuf_v24 (p1 : main_v24.ty = ⟨S100000x128, .f32⟩) (p2 p3) (v : main_v24.ty.Contents Val) :
    (TRef.of (T := ⟨S100000x128, .f32⟩) main_v24 p1 p2 p3).ofBuf v = v := rfl
theorem ofBuf_v30 (p1 : main_v30.ty = ⟨S100000x128, .f32⟩) (p2 p3) (v : main_v30.ty.Contents Val) :
    (TRef.of (T := ⟨S100000x128, .f32⟩) main_v30 p1 p2 p3).ofBuf v = v := rfl
theorem toBuf_v19 (p1 : main_v19.ty = ⟨S1600000x128, .f32⟩) (p2 p3) (v : (⟨S1600000x128, .f32⟩ : BufTy).Contents Val) :
    (TRef.of (T := ⟨S1600000x128, .f32⟩) main_v19 p1 p2 p3).toBuf v = v := rfl
theorem toBuf_v25 (p1 : main_v25.ty = ⟨S1600000x128, .f32⟩) (p2 p3) (v : (⟨S1600000x128, .f32⟩ : BufTy).Contents Val) :
    (TRef.of (T := ⟨S1600000x128, .f32⟩) main_v25 p1 p2 p3).toBuf v = v := rfl
theorem toBuf_v31 (p1 : main_v31.ty = ⟨S1600000x128, .f32⟩) (p2 p3) (v : (⟨S1600000x128, .f32⟩ : BufTy).Contents Val) :
    (TRef.of (T := ⟨S1600000x128, .f32⟩) main_v31 p1 p2 p3).toBuf v = v := rfl
end Atoms

/-! ## The kernel's host terms -/

/-- Per node, (the number of edges naming it in `ids`, at least 1) to the power -1/2, kept as a column. -/
def normCol (ids : IVec S1600000 32) : FVec F S100000x1 .f32 :=
  shapeCast S100000x1
    (Host.powf
      (maximumf (broadcastInDim S100000 ![] bcast_S_S100000 (id (constant (F := F) S_ .f32 0x3F800000#32)))
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 ids)
          (broadcastInDim S1600000 ![] bcast_S_S1600000 (constant (F := F) S_ .f32 0x3F800000#32))))
      (broadcastInDim S100000 ![] bcast_S_S100000 (constant (F := F) S_ .f32 0xBF000000#32)))
    shapeCasts_S100000_S100000x1

/-- The source ids as a column, a negative id moved up by the number of nodes. -/
def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge and column, whether the wrapped id is a row of the table. -/
def inRange (idx : IVec S1600000x1 32) : IVec S1600000x128 1 :=
  broadcastInDim S1600000x128 ![0] bcast_S1600000_S1600000x128_0
    (Host.reduce IntOp.andi
      (andi (cmpi .sge idx (broadcastInDim S1600000x1 ![] bcast_S_S1600000x1 (constantI S_ 32 0#32)))
        (cmpi .sle idx (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The rows of `h` at the edges' source ids, a fill value where an id is no row. -/
def lookupFill (h : FVec F S100000x128 .f32) (src : IVec S1600000 32) : FVec F S1600000x128 .f32 :=
  select (inRange (wrapCol src))
    (Host.gather gather_S100000x128_S1600000x1_S1600000x128_1_0_n_n_0_1_1128 h (wrapCol src))
    (broadcastInDim S1600000x128 ![] bcast_S_S1600000x128 (constant (F := F) S_ .f32 0x7FC00000#32))

/-- The looked-up rows added up at the edges' destination ids. -/
def aggFill (src dst : IVec S1600000 32) (h : FVec F S100000x128 .f32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (lookupFill h src)

/-! ## A buffer no operation of a stretch writes keeps its contents -/

/-- Closes "no operation of this stretch writes the buffer", one inequality of references per operation. -/
macro "not_written" : tactic => `(tactic| (
  refine List.forall_iff_forall_mem.mp ?_
  simp only [hostOps1, hostOps1_1, hostOps3, hostOps3_1, hostOps5, hostOps5_1, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The stretches before the first region -/

theorem W5_unfold (b : DevRef τ sig) : W5 m ρ c b
    = StableHlo.after hostOps0_4 (StableHlo.after hostOps0_3 (StableHlo.after hostOps0_2 (StableHlo.after hostOps0_1
        (StableHlo.after hostOps0 (W0 m ρ c))))) b := rfl

set_option maxHeartbeats 2000000 in
/-- The source-degree column. -/
theorem W5_v11 : W5 m ρ c (Proc.devRef .tc main_v11) = normCol (F := F) (m ((c : Thread nD τ).loc main_arg1)) := by
  rw [W5_unfold]; after_results_simp; rfl
set_option maxHeartbeats 2000000 in
/-- The destination-degree column. -/
theorem W5_v14 : W5 m ρ c (Proc.devRef .tc main_v14) = normCol (F := F) (m ((c : Thread nD τ).loc main_arg2)) := by
  rw [W5_unfold]; after_results_simp; rfl
set_option maxHeartbeats 2000000 in
/-- The three bias vectors as rows. -/
theorem W5_v15 : W5 m ρ c (Proc.devRef .tc main_v15)
    = shapeCast S1x128 (m ((c : Thread nD τ).loc main_arg4)) shapeCasts_S128_S1x128 := by
  rw [W5_unfold]; after_results_simp; rfl
set_option maxHeartbeats 2000000 in
theorem W5_v16 : W5 m ρ c (Proc.devRef .tc main_v16)
    = shapeCast S1x128 (m ((c : Thread nD τ).loc main_arg6)) shapeCasts_S128_S1x128 := by
  rw [W5_unfold]; after_results_simp; rfl
set_option maxHeartbeats 2000000 in
theorem W5_v17 : W5 m ρ c (Proc.devRef .tc main_v17)
    = shapeCast S1x47 (m ((c : Thread nD τ).loc main_arg8)) shapeCasts_S47_S1x47 := by
  rw [W5_unfold]; after_results_simp; rfl
set_option maxHeartbeats 2000000 in
/-- The arguments a region or a later stretch reads are as launched. -/
theorem W5_arg0 : W5 m ρ c (Proc.devRef .tc main_arg0) = m ((c : Thread nD τ).loc main_arg0) := by
  rw [W5_unfold]; after_results_simp
set_option maxHeartbeats 2000000 in
theorem W5_arg1 : W5 m ρ c (Proc.devRef .tc main_arg1) = m ((c : Thread nD τ).loc main_arg1) := by
  rw [W5_unfold]; after_results_simp
set_option maxHeartbeats 2000000 in
theorem W5_arg2 : W5 m ρ c (Proc.devRef .tc main_arg2) = m ((c : Thread nD τ).loc main_arg2) := by
  rw [W5_unfold]; after_results_simp
set_option maxHeartbeats 2000000 in
theorem W5_arg3 : W5 m ρ c (Proc.devRef .tc main_arg3) = m ((c : Thread nD τ).loc main_arg3) := by
  rw [W5_unfold]; after_results_simp
set_option maxHeartbeats 2000000 in
theorem W5_arg5 : W5 m ρ c (Proc.devRef .tc main_arg5) = m ((c : Thread nD τ).loc main_arg5) := by
  rw [W5_unfold]; after_results_simp
set_option maxHeartbeats 2000000 in
theorem W5_arg7 : W5 m ρ c (Proc.devRef .tc main_arg7) = m ((c : Thread nD τ).loc main_arg7) := by
  rw [W5_unfold]; after_results_simp

/-! ## The lookup and the sum between a scaling region and a matrix-product region, from any contents -/

set_option maxHeartbeats 4000000 in
theorem lookup1 (Vin : Valuation τ sig (Elt F)) : StableHlo.after (hostOps1 (F := F)) Vin (Proc.devRef .tc main_v19)
    = lookupFill (F := F) (Vin (Proc.devRef .tc main_v18)) (Vin (Proc.devRef .tc main_arg1)) := by
  after_results_simp
  simp only [ofBuf_toBuf, ofBuf_arg1, ofBuf_v18, toBuf_v19]
  rfl
set_option maxHeartbeats 4000000 in
theorem lookup3 (Vin : Valuation τ sig (Elt F)) : StableHlo.after (hostOps3 (F := F)) Vin (Proc.devRef .tc main_v25)
    = lookupFill (F := F) (Vin (Proc.devRef .tc main_v24)) (Vin (Proc.devRef .tc main_arg1)) := by
  after_results_simp
  simp only [ofBuf_toBuf, ofBuf_arg1, ofBuf_v24, toBuf_v25]
  rfl
set_option maxHeartbeats 4000000 in
theorem lookup5 (Vin : Valuation τ sig (Elt F)) : StableHlo.after (hostOps5 (F := F)) Vin (Proc.devRef .tc main_v31)
    = lookupFill (F := F) (Vin (Proc.devRef .tc main_v30)) (Vin (Proc.devRef .tc main_arg1)) := by
  after_results_simp
  simp only [ofBuf_toBuf, ofBuf_arg1, ofBuf_v30, toBuf_v31]
  rfl

/-- The rows `u` added up at the ids `dst`. -/
def sumAt (dst : IVec S1600000 32) (u : FVec F S1600000x128 .f32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst) u

theorem aggFill_eq (src dst : IVec S1600000 32) (h : FVec F S100000x128 .f32) :
    aggFill (F := F) src dst h = sumAt dst (lookupFill h src) := rfl

theorem sum1 (Vin : Valuation τ sig (Elt F)) : StableHlo.after (hostOps1_1 (F := F)) Vin (Proc.devRef .tc main_v22)
    = sumAt (F := F) (Vin (Proc.devRef .tc main_arg2)) (Vin (Proc.devRef .tc main_v19)) := by
  after_results_simp; rfl
theorem sum3 (Vin : Valuation τ sig (Elt F)) : StableHlo.after (hostOps3_1 (F := F)) Vin (Proc.devRef .tc main_v28)
    = sumAt (F := F) (Vin (Proc.devRef .tc main_arg2)) (Vin (Proc.devRef .tc main_v25)) := by
  after_results_simp; rfl
theorem sum5 (Vin : Valuation τ sig (Elt F)) : StableHlo.after (hostOps5_1 (F := F)) Vin (Proc.devRef .tc main_v34)
    = sumAt (F := F) (Vin (Proc.devRef .tc main_arg2)) (Vin (Proc.devRef .tc main_v31)) := by
  after_results_simp; rfl

/-! ## Carrying a buffer across a region or a stretch that does not write it -/

section Carry
variable (b : Ref sig .tc)

theorem over7 (n1 : ∀ op ∈ (hostOps1 : List (HloOp τ sig (Elt F))), Proc.devRef .tc b ∉ op.writes) :
    W7 m ρ c (Proc.devRef .tc b) = W6 m ρ c (Proc.devRef .tc b) := StableHlo.after_of_forall_not_mem _ _ n1
theorem over8 (n1 : ∀ op ∈ (hostOps1 : List (HloOp τ sig (Elt F))), Proc.devRef .tc b ∉ op.writes)
    (n2 : ∀ op ∈ (hostOps1_1 : List (HloOp τ sig (Elt F))), Proc.devRef .tc b ∉ op.writes) :
    W8 m ρ c (Proc.devRef .tc b) = W6 m ρ c (Proc.devRef .tc b) :=
  (StableHlo.after_of_forall_not_mem _ _ n2).trans (over7 m ρ c b n1)
theorem over11 (n1 : ∀ op ∈ (hostOps3 : List (HloOp τ sig (Elt F))), Proc.devRef .tc b ∉ op.writes) :
    W11 m ρ c (Proc.devRef .tc b) = W10 m ρ c (Proc.devRef .tc b) := StableHlo.after_of_forall_not_mem _ _ n1
theorem over12 (n1 : ∀ op ∈ (hostOps3 : List (HloOp τ sig (Elt F))), Proc.devRef .tc b ∉ op.writes)
    (n2 : ∀ op ∈ (hostOps3_1 : List (HloOp τ sig (Elt F))), Proc.devRef .tc b ∉ op.writes) :
    W12 m ρ c (Proc.devRef .tc b) = W10 m ρ c (Proc.devRef .tc b) :=
  (StableHlo.after_of_forall_not_mem _ _ n2).trans (over11 m ρ c b n1)
theorem over15 (n1 : ∀ op ∈ (hostOps5 : List (HloOp τ sig (Elt F))), Proc.devRef .tc b ∉ op.writes) :
    W15 m ρ c (Proc.devRef .tc b) = W14 m ρ c (Proc.devRef .tc b) := StableHlo.after_of_forall_not_mem _ _ n1
theorem over16 (n1 : ∀ op ∈ (hostOps5 : List (HloOp τ sig (Elt F))), Proc.devRef .tc b ∉ op.writes)
    (n2 : ∀ op ∈ (hostOps5_1 : List (HloOp τ sig (Elt F))), Proc.devRef .tc b ∉ op.writes) :
    W16 m ρ c (Proc.devRef .tc b) = W14 m ρ c (Proc.devRef .tc b) :=
  (StableHlo.after_of_forall_not_mem _ _ n2).trans (over15 m ρ c b n1)

end Carry

/-- An input window's array is as the region found it. -/
theorem W6_v11 : W6 m ρ c (Proc.devRef .tc main_v11) = W5 m ρ c (Proc.devRef .tc main_v11) :=
  (W6_arr m ρ c 1).trans (((dat0 (V5 m ρ) c).arrAt_in 1 rfl _).trans (A_eq0 (V5 m ρ) c 1))
theorem W9_v14 : W9 m ρ c (Proc.devRef .tc main_v14) = W8 m ρ c (Proc.devRef .tc main_v14) :=
  (W9_arr m ρ c 1).trans (((dat1 (V8 m ρ) c).arrAt_in 1 rfl _).trans (A_eq1 (V8 m ρ) c 1))
theorem W10_v11 : W10 m ρ c (Proc.devRef .tc main_v11) = W9 m ρ c (Proc.devRef .tc main_v11) :=
  (W10_arr m ρ c 1).trans (((dat2 (V9 m ρ) c).arrAt_in 1 rfl _).trans (A_eq2 (V9 m ρ) c 1))
theorem W13_v14 : W13 m ρ c (Proc.devRef .tc main_v14) = W12 m ρ c (Proc.devRef .tc main_v14) :=
  (W13_arr m ρ c 1).trans (((dat3 (V12 m ρ) c).arrAt_in 1 rfl _).trans (A_eq3 (V12 m ρ) c 1))

/-! ### The columns, rows, ids and weights where each is read -/

-- the source ids at the three lookups
theorem W6_arg1 : W6 m ρ c (Proc.devRef .tc main_arg1) = m ((c : Thread nD τ).loc main_arg1) :=
  (W6_of_ne m ρ c main_arg1 (by decide)).trans (W5_arg1 m ρ c)
theorem W10_arg1 : W10 m ρ c (Proc.devRef .tc main_arg1) = m ((c : Thread nD τ).loc main_arg1) :=
  (W10_of_ne m ρ c main_arg1 (by decide)).trans ((W9_of_ne m ρ c main_arg1 (by decide)).trans
    ((over8 m ρ c main_arg1 (by not_written) (by not_written)).trans (W6_arg1 m ρ c)))
theorem W14_arg1 : W14 m ρ c (Proc.devRef .tc main_arg1) = m ((c : Thread nD τ).loc main_arg1) :=
  (W14_of_ne m ρ c main_arg1 (by decide)).trans ((W13_of_ne m ρ c main_arg1 (by decide)).trans
    ((over12 m ρ c main_arg1 (by not_written) (by not_written)).trans (W10_arg1 m ρ c)))
-- the destination ids at the three sums
theorem W6_arg2 : W6 m ρ c (Proc.devRef .tc main_arg2) = m ((c : Thread nD τ).loc main_arg2) :=
  (W6_of_ne m ρ c main_arg2 (by decide)).trans (W5_arg2 m ρ c)
theorem W7_arg2 : W7 m ρ c (Proc.devRef .tc main_arg2) = m ((c : Thread nD τ).loc main_arg2) :=
  (over7 m ρ c main_arg2 (by not_written)).trans (W6_arg2 m ρ c)
theorem W10_arg2 : W10 m ρ c (Proc.devRef .tc main_arg2) = m ((c : Thread nD τ).loc main_arg2) :=
  (W10_of_ne m ρ c main_arg2 (by decide)).trans ((W9_of_ne m ρ c main_arg2 (by decide)).trans
    ((over8 m ρ c main_arg2 (by not_written) (by not_written)).trans (W6_arg2 m ρ c)))
theorem W11_arg2 : W11 m ρ c (Proc.devRef .tc main_arg2) = m ((c : Thread nD τ).loc main_arg2) :=
  (over11 m ρ c main_arg2 (by not_written)).trans (W10_arg2 m ρ c)
theorem W14_arg2 : W14 m ρ c (Proc.devRef .tc main_arg2) = m ((c : Thread nD τ).loc main_arg2) :=
  (W14_of_ne m ρ c main_arg2 (by decide)).trans ((W13_of_ne m ρ c main_arg2 (by decide)).trans
    ((over12 m ρ c main_arg2 (by not_written) (by not_written)).trans (W10_arg2 m ρ c)))
theorem W15_arg2 : W15 m ρ c (Proc.devRef .tc main_arg2) = m ((c : Thread nD τ).loc main_arg2) :=
  (over15 m ρ c main_arg2 (by not_written)).trans (W14_arg2 m ρ c)
-- the source-degree column at regions 2 and 4
theorem W9_v11 : W9 m ρ c (Proc.devRef .tc main_v11) = normCol (F := F) (m ((c : Thread nD τ).loc main_arg1)) :=
  (W9_of_ne m ρ c main_v11 (by decide)).trans ((over8 m ρ c main_v11 (by not_written) (by not_written)).trans
    ((W6_v11 m ρ c).trans (W5_v11 m ρ c)))
theorem W13_v11 : W13 m ρ c (Proc.devRef .tc main_v11) = normCol (F := F) (m ((c : Thread nD τ).loc main_arg1)) :=
  (W13_of_ne m ρ c main_v11 (by decide)).trans ((over12 m ρ c main_v11 (by not_written) (by not_written)).trans
    ((W10_v11 m ρ c).trans (W9_v11 m ρ c)))
-- the destination-degree column at regions 1, 3 and 5
theorem W8_v14 : W8 m ρ c (Proc.devRef .tc main_v14) = normCol (F := F) (m ((c : Thread nD τ).loc main_arg2)) :=
  (over8 m ρ c main_v14 (by not_written) (by not_written)).trans
    ((W6_of_ne m ρ c main_v14 (by decide)).trans (W5_v14 m ρ c))
theorem W12_v14 : W12 m ρ c (Proc.devRef .tc main_v14) = normCol (F := F) (m ((c : Thread nD τ).loc main_arg2)) :=
  (over12 m ρ c main_v14 (by not_written) (by not_written)).trans ((W10_of_ne m ρ c main_v14 (by decide)).trans
    ((W9_v14 m ρ c).trans (W8_v14 m ρ c)))
theorem W16_v14 : W16 m ρ c (Proc.devRef .tc main_v14) = normCol (F := F) (m ((c : Thread nD τ).loc main_arg2)) :=
  (over16 m ρ c main_v14 (by not_written) (by not_written)).trans ((W14_of_ne m ρ c main_v14 (by decide)).trans
    ((W13_v14 m ρ c).trans (W12_v14 m ρ c)))
-- the weights and bias rows at regions 1, 3 and 5
theorem W8_arg3 : W8 m ρ c (Proc.devRef .tc main_arg3) = m ((c : Thread nD τ).loc main_arg3) :=
  (over8 m ρ c main_arg3 (by not_written) (by not_written)).trans
    ((W6_of_ne m ρ c main_arg3 (by decide)).trans (W5_arg3 m ρ c))
theorem W8_v15 : W8 m ρ c (Proc.devRef .tc main_v15)
    = shapeCast S1x128 (m ((c : Thread nD τ).loc main_arg4)) shapeCasts_S128_S1x128 :=
  (over8 m ρ c main_v15 (by not_written) (by not_written)).trans
    ((W6_of_ne m ρ c main_v15 (by decide)).trans (W5_v15 m ρ c))
theorem W12_arg5 : W12 m ρ c (Proc.devRef .tc main_arg5) = m ((c : Thread nD τ).loc main_arg5) :=
  (over12 m ρ c main_arg5 (by not_written) (by not_written)).trans ((W10_of_ne m ρ c main_arg5 (by decide)).trans
    ((W9_of_ne m ρ c main_arg5 (by decide)).trans ((over8 m ρ c main_arg5 (by not_written) (by not_written)).trans
      ((W6_of_ne m ρ c main_arg5 (by decide)).trans (W5_arg5 m ρ c)))))
theorem W12_v16 : W12 m ρ c (Proc.devRef .tc main_v16)
    = shapeCast S1x128 (m ((c : Thread nD τ).loc main_arg6)) shapeCasts_S128_S1x128 :=
  (over12 m ρ c main_v16 (by not_written) (by not_written)).trans ((W10_of_ne m ρ c main_v16 (by decide)).trans
    ((W9_of_ne m ρ c main_v16 (by decide)).trans ((over8 m ρ c main_v16 (by not_written) (by not_written)).trans
      ((W6_of_ne m ρ c main_v16 (by decide)).trans (W5_v16 m ρ c)))))
theorem W16_arg7 : W16 m ρ c (Proc.devRef .tc main_arg7) = m ((c : Thread nD τ).loc main_arg7) :=
  (over16 m ρ c main_arg7 (by not_written) (by not_written)).trans ((W14_of_ne m ρ c main_arg7 (by decide)).trans
    ((W13_of_ne m ρ c main_arg7 (by decide)).trans ((over12 m ρ c main_arg7 (by not_written) (by not_written)).trans
      ((W10_of_ne m ρ c main_arg7 (by decide)).trans ((W9_of_ne m ρ c main_arg7 (by decide)).trans
        ((over8 m ρ c main_arg7 (by not_written) (by not_written)).trans
          ((W6_of_ne m ρ c main_arg7 (by decide)).trans (W5_arg7 m ρ c))))))))
theorem W16_v17 : W16 m ρ c (Proc.devRef .tc main_v17)
    = shapeCast S1x47 (m ((c : Thread nD τ).loc main_arg8)) shapeCasts_S47_S1x47 :=
  (over16 m ρ c main_v17 (by not_written) (by not_written)).trans ((W14_of_ne m ρ c main_v17 (by decide)).trans
    ((W13_of_ne m ρ c main_v17 (by decide)).trans ((over12 m ρ c main_v17 (by not_written) (by not_written)).trans
      ((W10_of_ne m ρ c main_v17 (by decide)).trans ((W9_of_ne m ρ c main_v17 (by decide)).trans
        ((over8 m ρ c main_v17 (by not_written) (by not_written)).trans
          ((W6_of_ne m ρ c main_v17 (by decide)).trans (W5_v17 m ρ c))))))))

/-- The aggregation between two regions: what the stretch after the scaling region leaves, from that region's output. -/
theorem W8_v22 : W8 m ρ c (Proc.devRef .tc main_v22)
    = aggFill (F := F) (m ((c : Thread nD τ).loc main_arg1)) (m ((c : Thread nD τ).loc main_arg2)) (W6 m ρ c (Proc.devRef .tc main_v18)) := by
  rw [aggFill_eq, ← W7_arg2 m ρ c, ← W6_arg1 m ρ c, ← lookup1 (W6 m ρ c)]
  exact sum1 (W7 m ρ c)
theorem W12_v28 : W12 m ρ c (Proc.devRef .tc main_v28)
    = aggFill (F := F) (m ((c : Thread nD τ).loc main_arg1)) (m ((c : Thread nD τ).loc main_arg2)) (W10 m ρ c (Proc.devRef .tc main_v24)) := by
  rw [aggFill_eq, ← W11_arg2 m ρ c, ← W10_arg1 m ρ c, ← lookup3 (W10 m ρ c)]
  exact sum3 (W11 m ρ c)
theorem W16_v34 : W16 m ρ c (Proc.devRef .tc main_v34)
    = aggFill (F := F) (m ((c : Thread nD τ).loc main_arg1)) (m ((c : Thread nD τ).loc main_arg2)) (W14 m ρ c (Proc.devRef .tc main_v30)) := by
  rw [aggFill_eq, ← W15_arg2 m ρ c, ← W14_arg1 m ρ c, ← lookup5 (W14 m ρ c)]
  exact sum5 (W15 m ρ c)

end AnyFloats

/-! ## The six regions, at the extended reals -/

section Layers

variable (m : (ℓ : Loc nD τ sig) → Buf (Elt Ideal) ℓ) (ρ : Dev nD → PrngReg) (c : Dev nD)

theorem conv_congr {D : ℕ} (relu : Bool) {g g' : SNx128.Idx → EReal} {n n' : SNx1.Idx → EReal}
    {W W' : (⟨2, ![128, D]⟩ : Shape).Idx → EReal} {b b' : (⟨2, ![1, D]⟩ : Shape).Idx → EReal}
    (hg : g = g') (hn : n = n') (hW : W = W') (hb : b = b') : conv relu g n W b = conv relu g' n' W' b' := by
  subst hg hn hW hb; rfl

/-- The launch contents the layers are functions of. -/
abbrev xs : SNx128.Idx → EReal := m ((c : Thread nD τ).loc main_arg0)
abbrev srcIds : IVec S1600000 32 := m ((c : Thread nD τ).loc main_arg1)
abbrev dstIds : IVec S1600000 32 := m ((c : Thread nD τ).loc main_arg2)
abbrev nsrc : SNx1.Idx → EReal := normCol (F := Ideal) (srcIds m c)
abbrev ndst : SNx1.Idx → EReal := normCol (F := Ideal) (dstIds m c)
abbrev agg : (SNx128.Idx → EReal) → (SNx128.Idx → EReal) := aggFill (F := Ideal) (srcIds m c) (dstIds m c)
abbrev w0 : (⟨2, ![128, 128]⟩ : Shape).Idx → EReal := m ((c : Thread nD τ).loc main_arg3)
abbrev w1 : (⟨2, ![128, 128]⟩ : Shape).Idx → EReal := m ((c : Thread nD τ).loc main_arg5)
abbrev w2 : (⟨2, ![128, 47]⟩ : Shape).Idx → EReal := m ((c : Thread nD τ).loc main_arg7)
abbrev r0 : (⟨2, ![1, 128]⟩ : Shape).Idx → EReal := shapeCast S1x128 (m ((c : Thread nD τ).loc main_arg4)) shapeCasts_S128_S1x128
abbrev r1 : (⟨2, ![1, 128]⟩ : Shape).Idx → EReal := shapeCast S1x128 (m ((c : Thread nD τ).loc main_arg6)) shapeCasts_S128_S1x128
abbrev r2 : (⟨2, ![1, 47]⟩ : Shape).Idx → EReal := shapeCast S1x47 (m ((c : Thread nD τ).loc main_arg8)) shapeCasts_S47_S1x47

/-- The tables between the regions. -/
abbrev t0 : SNx128.Idx → EReal := scaled true (xs m c) (nsrc m c)
abbrev t1 : SNx128.Idx → EReal := conv true (agg m c (t0 m c)) (ndst m c) (w0 m c) (r0 m c)
abbrev t2 : SNx128.Idx → EReal := scaled false (t1 m c) (nsrc m c)
abbrev t3 : SNx128.Idx → EReal := conv true (agg m c (t2 m c)) (ndst m c) (w1 m c) (r1 m c)
abbrev t4 : SNx128.Idx → EReal := scaled false (t3 m c) (nsrc m c)

/-- Layer 0's scaled input. -/
theorem W6_v18 : (W6 m ρ c (Proc.devRef .tc main_v18) : S100000x128.Idx → EReal) = t0 m c :=
  (W6_arr m ρ c 2).trans ((region0_value (V5 m ρ) c).trans
    (congrArg₂ (scaled true) (W5_arg0 m ρ c) (W5_v11 m ρ c)))
/-- Layer 0's output. -/
theorem W9_v23 : (W9 m ρ c (Proc.devRef .tc main_v23) : S100000x128.Idx → EReal) = t1 m c :=
  (W9_arr m ρ c 4).trans ((region1_value (V8 m ρ) c).trans
    (conv_congr true ((W8_v22 m ρ c).trans (congrArg (agg m c) (W6_v18 m ρ c))) (W8_v14 m ρ c) (W8_arg3 m ρ c) (W8_v15 m ρ c)))
/-- Layer 1's scaled input. -/
theorem W10_v24 : (W10 m ρ c (Proc.devRef .tc main_v24) : S100000x128.Idx → EReal) = t2 m c :=
  (W10_arr m ρ c 2).trans ((region2_value (V9 m ρ) c).trans
    (congrArg₂ (scaled false) (W9_v23 m ρ c) (W9_v11 m ρ c)))
/-- Layer 1's output. -/
theorem W13_v29 : (W13 m ρ c (Proc.devRef .tc main_v29) : S100000x128.Idx → EReal) = t3 m c :=
  (W13_arr m ρ c 4).trans ((region3_value (V12 m ρ) c).trans
    (conv_congr true ((W12_v28 m ρ c).trans (congrArg (agg m c) (W10_v24 m ρ c))) (W12_v14 m ρ c) (W12_arg5 m ρ c) (W12_v16 m ρ c)))
/-- Layer 2's scaled input. -/
theorem W14_v30 : (W14 m ρ c (Proc.devRef .tc main_v30) : S100000x128.Idx → EReal) = t4 m c :=
  (W14_arr m ρ c 2).trans ((region4_value (V13 m ρ) c).trans
    (congrArg₂ (scaled false) (W13_v29 m ρ c) (W13_v11 m ρ c)))

/-- THE RESULT: what the last boundary holds in the result array is the three layers, with the fill-mode lookup as the
    aggregation. -/
theorem kernel_value : (W17 m ρ c (Proc.devRef .tc main_v35) : S100000x47.Idx → EReal)
    = net (agg m c) (xs m c) (nsrc m c) (ndst m c) (w0 m c) (r0 m c) (w1 m c) (r1 m c) (w2 m c) (r2 m c) :=
  (W17_arr m ρ c 4).trans ((region5_value (V16 m ρ) c).trans
    (conv_congr false ((W16_v34 m ρ c).trans (congrArg (agg m c) (W14_v30 m ρ c))) (W16_v14 m ρ c) (W16_arg7 m ρ c) (W16_v17 m ρ c)))

end Layers

end Cert.KernelIdeal.Hand

end
-- ==== Proof.LibRow.lean ====
/-
  GENERAL LEMMA: a vector kept as a row read at an index.

  An [a] vector cast to the row [1, a] (a bias reshaped for a row-wise broadcast) only renames the index: the row at
  (0, j) is the vector at j, since both sit at position j in row-major order.
-/
import Idealize.ShloMosaic.Lib.ValueLayout

namespace Cert.LibRow

open Idealize.ShloMosaic Idealize.ShloMosaic.ValueIdx

/-- An [a] vector cast to the row [1, a] reads, at (u, j), the operand at j. -/
theorem shapeCast_a_1a_apply {α : Type} {a : ℕ} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

end Cert.LibRow
-- ==== Proof.RefMaps.lean ====
/-
  Whole-array equalities between groups of host operations and the two row-wise maps of a graph-convolution layer.

  A layer of the host program is written with operations over whole [100000, D] arrays: the [100000, 1] column is
  broadcast along the rows and multiplied into the table (`scaled`), the scaled table is multiplied by a [128, D] weight
  table, a [1, D] row is broadcast down the rows and added, and the result is clamped at a broadcast zero (`conv`).
  Read index by index, a broadcast only renames the index, the product at (p, q) is the sum over k of l[p, k] · r[k, q],
  and the pointwise operations act on the entries; so each group of operations is the function of the same name.
  The shape facts the broadcasts and the product carry are variables: any proof of the fact will do.
-/
import proofs.«402026_j9818295239119_1_alg».proof.Proof.ConvMaps
import proofs.«402026_j9818295239119_1_alg».proof.Proof.LibColumn
import proofs.«402026_j9818295239119_1_alg».proof.Proof.LibRow
import proofs.«402026_j9818295239119_1_alg».proof.Proof.LibPlainDot
import Idealize.ShloMosaic.Lib.Pipeline.Value
import Idealize.ShloMosaic.Lib.ValueLayout
import Idealize.ShloMosaic.Lib.StableHlo.Predicate

noncomputable section

namespace Cert.GraphConv

open Idealize.ShloMosaic Idealize.ShloMosaic.ValueIdx Idealize.ShloMosaic.StableHlo.Predicate

local notation "S0" => (⟨0, ![]⟩ : Shape)

/-- The scalar shape has one element. -/
theorem ref_numel_S0 : 0 < (S0).numel := by decide

/-- The two spellings of the index (p, q) agree. -/
theorem ref_ij_eq_ix2 {n m : Nat} (p : Fin n) (q : Fin m) : (ij p q : (⟨2, ![n, m]⟩ : Shape).Idx) = ix2 p q := by
  funext a; match a with | ⟨0, _⟩ => rfl | ⟨1, _⟩ => rfl

/-- The two spellings of the column index (p, 0) agree. -/
theorem ref_ixP_eq_ix2 {n : Nat} (p : Fin n) : (ixP p : (⟨2, ![n, 1]⟩ : Shape).Idx) = ix2 p (0 : Fin 1) := by
  funext a; match a with | ⟨0, _⟩ => rfl | ⟨1, _⟩ => rfl

/-- The two spellings of the row index (0, q) agree. -/
theorem ref_i1q_eq_ix2 {m : Nat} (q : Fin m) : (i1q q : (⟨2, ![1, m]⟩ : Shape).Idx) = ix2 (0 : Fin 1) q := by
  funext a; match a with | ⟨0, _⟩ => rfl | ⟨1, _⟩ => rfl

/-- The two spellings of the vector index p agree. -/
theorem ref_ofFin_eq_ix1 {n : Nat} (p : Fin n) : (Shape.Idx.ofFin p : (⟨1, ![n]⟩ : Shape).Idx) = ix1 p := by
  funext a; match a with | ⟨0, _⟩ => rfl

/-- The zero word broadcast to any shape reads the clamp value everywhere. -/
theorem ref_zero_bcast_apply {t : Shape} (hz : (S0).BroadcastsInDim t ![]) (j : t.Idx) :
    broadcastInDim t ![] hz (constant (F := Ideal) S0 .f32 0x00000000#32) j = z :=
  (bcast_scalar hz ref_numel_S0 _ j).trans rfl

/-- The clamped table times the column broadcast along the rows is the scaled table with the clamp. -/
theorem ref_scaled_relu (hz : (S0).BroadcastsInDim SNx128 ![]) (hcol : SNx1.BroadcastsInDim SNx128 ![0, 1])
    (x : FVec Ideal SNx128 .f32) (ncol : FVec Ideal SNx1 .f32) :
    mulf (maximumf x (broadcastInDim SNx128 ![] hz (constant (F := Ideal) S0 .f32 0x00000000#32)))
        (broadcastInDim SNx128 ![0, 1] hcol ncol) = scaled true x ncol := by
  funext i
  obtain ⟨p, q, rfl⟩ : ∃ (p : Fin 100000) (q : Fin 128), i = ij p q := ⟨i 0, i 1, (ij_eta i).symm⟩
  rw [scaled_ij]
  refine (mulf_apply _ _ _).trans ?_
  rw [maximumf_apply, ref_zero_bcast_apply, bcast_of_col]
  rfl

/-- The table times the column broadcast along the rows is the scaled table. -/
theorem ref_scaled (hcol : SNx1.BroadcastsInDim SNx128 ![0, 1]) (h : FVec Ideal SNx128 .f32)
    (ncol : FVec Ideal SNx1 .f32) :
    mulf h (broadcastInDim SNx128 ![0, 1] hcol ncol) = scaled false h ncol := by
  funext i
  obtain ⟨p, q, rfl⟩ : ∃ (p : Fin 100000) (q : Fin 128), i = ij p q := ⟨i 0, i 1, (ij_eta i).symm⟩
  rw [scaled_ij]
  refine (mulf_apply _ _ _).trans ?_
  rw [bcast_of_col]
  rfl

/-- Clamping twice at the broadcast zero is clamping once. -/
theorem relu_relu (hz : (S0).BroadcastsInDim SNx128 ![]) (a : FVec Ideal SNx128 .f32) :
    maximumf (maximumf a (broadcastInDim SNx128 ![] hz (constant (F := Ideal) S0 .f32 0x00000000#32)))
        (broadcastInDim SNx128 ![] hz (constant (F := Ideal) S0 .f32 0x00000000#32))
      = maximumf a (broadcastInDim SNx128 ![] hz (constant (F := Ideal) S0 .f32 0x00000000#32)) := by
  funext i
  rw [maximumf_apply, maximumf_apply, max_max_self]

/-- Entry (p, q) of the scaled table times the weight table plus the row broadcast down the rows. -/
theorem ref_conv_apply {D : ℕ} (dot : DotDims SNx128 ⟨2, ![128, D]⟩ ⟨2, ![100000, D]⟩)
    (hdot : dot = DotDims.plain 100000 128 D) (hcol : SNx1.BroadcastsInDim SNx128 ![0, 1])
    (hrow : (⟨2, ![1, D]⟩ : Shape).BroadcastsInDim ⟨2, ![100000, D]⟩ ![0, 1])
    (g : FVec Ideal SNx128 .f32) (ncol : FVec Ideal SNx1 .f32) (W : FVec Ideal ⟨2, ![128, D]⟩ .f32)
    (brow : FVec Ideal ⟨2, ![1, D]⟩ .f32) (p : Fin 100000) (q : Fin D) :
    addf (Host.dotGeneral dot none (mulf g (broadcastInDim SNx128 ![0, 1] hcol ncol)) W)
        (broadcastInDim ⟨2, ![100000, D]⟩ ![0, 1] hrow brow) (ij p q)
      = (∑ k : Fin 128, (g (ij p k) * ncol (ixP p)) * W (ij k q)) + brow (i1q q) := by
  subst hdot
  refine (addf_apply _ _ _).trans ?_
  rw [bcast_of_row]
  refine congrArg (· + brow (i1q q)) ?_
  show FloatOps.dotGeneral (DotDims.plain 100000 128 D) none .single
      (mulf g (broadcastInDim SNx128 ![0, 1] hcol ncol)) W (ij p q) = _
  rw [ref_ij_eq_ix2 p q, Cert.PlainDot.dotGeneral_apply]
  refine Finset.sum_congr rfl fun k _ => ?_
  rw [← ref_ij_eq_ix2 p k, ← ref_ij_eq_ix2 k q, mulf_apply, bcast_of_col]

/-- The scaled table times the weight table, plus the row broadcast down the rows, is the layer's output without
    the clamp. -/
theorem ref_conv {D : ℕ} (dot : DotDims SNx128 ⟨2, ![128, D]⟩ ⟨2, ![100000, D]⟩)
    (hdot : dot = DotDims.plain 100000 128 D) (hcol : SNx1.BroadcastsInDim SNx128 ![0, 1])
    (hrow : (⟨2, ![1, D]⟩ : Shape).BroadcastsInDim ⟨2, ![100000, D]⟩ ![0, 1])
    (g : FVec Ideal SNx128 .f32) (ncol : FVec Ideal SNx1 .f32) (W : FVec Ideal ⟨2, ![128, D]⟩ .f32)
    (brow : FVec Ideal ⟨2, ![1, D]⟩ .f32) :
    addf (Host.dotGeneral dot none (mulf g (broadcastInDim SNx128 ![0, 1] hcol ncol)) W)
        (broadcastInDim ⟨2, ![100000, D]⟩ ![0, 1] hrow brow) = conv false g ncol W brow := by
  funext i
  obtain ⟨p, q, rfl⟩ : ∃ (p : Fin 100000) (q : Fin D), i = ij p q := ⟨i 0, i 1, (ij_eta i).symm⟩
  rw [conv_ij, ref_conv_apply dot hdot hcol hrow]
  rfl

/-- The same, clamped at the broadcast zero, is the layer's output with the clamp. -/
theorem ref_conv_relu {D : ℕ} (dot : DotDims SNx128 ⟨2, ![128, D]⟩ ⟨2, ![100000, D]⟩)
    (hdot : dot = DotDims.plain 100000 128 D) (hcol : SNx1.BroadcastsInDim SNx128 ![0, 1])
    (hrow : (⟨2, ![1, D]⟩ : Shape).BroadcastsInDim ⟨2, ![100000, D]⟩ ![0, 1])
    (hzD : (S0).BroadcastsInDim ⟨2, ![100000, D]⟩ ![])
    (g : FVec Ideal SNx128 .f32) (ncol : FVec Ideal SNx1 .f32) (W : FVec Ideal ⟨2, ![128, D]⟩ .f32)
    (brow : FVec Ideal ⟨2, ![1, D]⟩ .f32) :
    maximumf (addf (Host.dotGeneral dot none (mulf g (broadcastInDim SNx128 ![0, 1] hcol ncol)) W)
          (broadcastInDim ⟨2, ![100000, D]⟩ ![0, 1] hrow brow))
        (broadcastInDim ⟨2, ![100000, D]⟩ ![] hzD (constant (F := Ideal) S0 .f32 0x00000000#32))
      = conv true g ncol W brow := by
  funext i
  obtain ⟨p, q, rfl⟩ : ∃ (p : Fin 100000) (q : Fin D), i = ij p q := ⟨i 0, i 1, (ij_eta i).symm⟩
  rw [conv_ij, maximumf_apply, ref_zero_bcast_apply, ref_conv_apply dot hdot hcol hrow]
  rfl

/-- A layer's clamped output is unchanged by a further clamp at the broadcast zero. -/
theorem clamp_conv_relu {D : ℕ} (hzD : (S0).BroadcastsInDim ⟨2, ![100000, D]⟩ ![])
    (g : FVec Ideal SNx128 .f32) (ncol : FVec Ideal SNx1 .f32) (W : FVec Ideal ⟨2, ![128, D]⟩ .f32)
    (brow : FVec Ideal ⟨2, ![1, D]⟩ .f32) :
    maximumf (conv true g ncol W brow)
        (broadcastInDim ⟨2, ![100000, D]⟩ ![] hzD (constant (F := Ideal) S0 .f32 0x00000000#32))
      = conv true g ncol W brow := by
  funext i
  obtain ⟨p, q, rfl⟩ : ∃ (p : Fin 100000) (q : Fin D), i = ij p q := ⟨i 0, i 1, (ij_eta i).symm⟩
  rw [maximumf_apply, ref_zero_bcast_apply, conv_ij]
  show max (max _ z) z = max _ z
  exact max_max_self _ _

/-- A vector cast to a column is the vector broadcast to the column: both read, at (p, 0), the vector at p. -/
theorem col_cast_eq_bcast {α : Type} {n : ℕ} (v : (⟨1, ![n]⟩ : Shape).Idx → α)
    (h1 : (⟨1, ![n]⟩ : Shape).ShapeCasts ⟨2, ![n, 1]⟩) (h2 : (⟨1, ![n]⟩ : Shape).BroadcastsInDim ⟨2, ![n, 1]⟩ ![0]) :
    shapeCast ⟨2, ![n, 1]⟩ v h1 = broadcastInDim ⟨2, ![n, 1]⟩ ![0] h2 v := by
  funext i
  obtain ⟨p, u, rfl⟩ : ∃ (p : Fin n) (u : Fin 1), i = ix2 p u := ⟨i 0, i 1, eq_ix2 i⟩
  obtain rfl : u = 0 := Subsingleton.elim _ _
  rw [Cert.Column.shapeCast_a_a1_apply, ← ref_ixP_eq_ix2, bcast_col1, ref_ofFin_eq_ix1]

/-- A vector cast to a row is the vector broadcast to the row: both read, at (0, q), the vector at q. -/
theorem row_cast_eq_bcast {α : Type} {n : ℕ} (v : (⟨1, ![n]⟩ : Shape).Idx → α)
    (h1 : (⟨1, ![n]⟩ : Shape).ShapeCasts ⟨2, ![1, n]⟩) (h2 : (⟨1, ![n]⟩ : Shape).BroadcastsInDim ⟨2, ![1, n]⟩ ![1]) :
    shapeCast ⟨2, ![1, n]⟩ v h1 = broadcastInDim ⟨2, ![1, n]⟩ ![1] h2 v := by
  funext i
  obtain ⟨u, q, rfl⟩ : ∃ (u : Fin 1) (q : Fin n), i = ix2 u q := ⟨i 0, i 1, eq_ix2 i⟩
  obtain rfl : u = 0 := Subsingleton.elim _ _
  rw [Cert.LibRow.shapeCast_a_1a_apply, ← ref_i1q_eq_ix2, bcast_row1, ref_ofFin_eq_ix1]

end Cert.GraphConv

end
-- ==== Proof.RefStages.lean ====
/-
  The reference's stages, read off its generated run.

  The reference computes three graph-convolution layers with host operations over whole arrays. Each layer scales the
  rows of its input table by the source-degree column, looks the scaled rows up at the edges' source ids and adds them
  up at their destination ids, scales the rows of that sum by the destination-degree column, multiplies by the layer's
  weight table and adds the layer's row; the first layer clamps its input at zero, and every layer but the last clamps
  its output at zero (the second layer's input is clamped once more, which changes nothing). The run's result term is
  this nest of operations written out; here it is folded, layer by layer from the inside out, into the three-layer
  function `net` of the reference's own lookup-and-sum `aggR` and its own degree columns `normColR`.
-/
import proofs.«402026_j9818295239119_1_alg».proof.Proof.Gen.ReferenceIdeal.Run
import proofs.«402026_j9818295239119_1_alg».proof.Proof.Gen.ReferenceIdeal.Read
import proofs.«402026_j9818295239119_1_alg».proof.Proof.ConvMaps
import proofs.«402026_j9818295239119_1_alg».proof.Proof.RefMaps
import Idealize.ShloMosaic.Lib.StableHlo.Run

noncomputable section

namespace Cert.ReferenceIdeal.Hand

open Cert.ReferenceIdeal Cert.ReferenceIdeal.Gen Cert.ReferenceIdeal.Value Cert.GraphConv
open Idealize.ShloMosaic Idealize.ShloMosaic.TcCoe Idealize.SL.Sem Idealize.ShloMosaic.StableHlo

/-- The degree column of a vector of node ids: the number of edges at each node (a one added up at every edge's id,
    from zero), clamped below at one, raised to the power −1/2, as a [100000, 1] column. -/
def normColR (ids : IVec S1600000 32) : FVec Ideal S100000x1 .f32 :=
  broadcastInDim S100000x1 ![0] bcast_S100000_S100000x1_0 (Host.powf (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 ids) (broadcastInDim S1600000 ![] bcast_S_S1600000 (constant (F := Ideal) S_ .f32 0x3F800000#32)))) (broadcastInDim S100000 ![] bcast_S_S100000 (constant (F := Ideal) S_ .f32 0xBF000000#32)))

/-- The source ids as a column, a negative id counted from the end of the table. -/
def wrapColR (src : IVec S1600000 32) : IVec S1600000x1 32 :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- The lookup-and-sum between a layer's two row-wise maps: the table's rows at the edges' source ids, added up at
    the edges' destination ids, from zero. -/
def aggR (src dst : IVec S1600000 32) (h : FVec Ideal S100000x128 .f32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (wrapColR src))

/-- A vector of 128 entries as a [1, 128] row. -/
def rowR128 (b : FVec Ideal S128 .f32) : FVec Ideal S1x128 .f32 := broadcastInDim S1x128 ![1] bcast_S128_S1x128_1 b

/-- A vector of 47 entries as a [1, 47] row. -/
def rowR47 (b : FVec Ideal S47 .f32) : FVec Ideal S1x47 .f32 := broadcastInDim S1x47 ![1] bcast_S47_S1x47_1 b

set_option maxRecDepth 8192 in
/-- The run's result term is the three layers over the reference's lookup-and-sum and degree columns. -/
theorem res_eq_net (m : (ℓ : Loc nD τ sig) → Buf (Elt Ideal) ℓ) (c : Dev nD) :
    (res_main_v76 (F := Ideal) m c : S100000x47.Idx → EReal)
      = net (aggR (m ((c.tc : Thread nD τ).loc main_arg1)) (m ((c.tc : Thread nD τ).loc main_arg2))) (m ((c.tc : Thread nD τ).loc main_arg0))
          (normColR (m ((c.tc : Thread nD τ).loc main_arg1))) (normColR (m ((c.tc : Thread nD τ).loc main_arg2)))
          (m ((c.tc : Thread nD τ).loc main_arg3)) (rowR128 (m ((c.tc : Thread nD τ).loc main_arg4)))
          (m ((c.tc : Thread nD τ).loc main_arg5)) (rowR128 (m ((c.tc : Thread nD τ).loc main_arg6)))
          (m ((c.tc : Thread nD τ).loc main_arg7)) (rowR47 (m ((c.tc : Thread nD τ).loc main_arg8))) := by
  unfold res_main_v76
  -- the last layer: no clamp
  rw [ref_conv dot_S100000x128_S128x47_S100000x47_1_0_0_1_n_n rfl bcast_S100000x1_S100000x128_0_1 bcast_S1x47_S100000x47_0_1]
  -- the second layer's output, then the first layer's: each clamped at zero
  rw [ref_conv_relu dot_S100000x128_S128x128_S100000x128_1_0_0_1_n_n rfl bcast_S100000x1_S100000x128_0_1 bcast_S1x128_S100000x128_0_1 bcast_S_S100000x128]
  rw [ref_conv_relu dot_S100000x128_S128x128_S100000x128_1_0_0_1_n_n rfl bcast_S100000x1_S100000x128_0_1 bcast_S1x128_S100000x128_0_1 bcast_S_S100000x128]
  -- the second layer clamps its input, the first layer's clamped output, once more
  rw [clamp_conv_relu bcast_S_S100000x128]
  -- the first layer's input: clamped, then scaled
  rw [ref_scaled_relu bcast_S_S100000x128 bcast_S100000x1_S100000x128_0_1]
  -- the third layer's input, then the second's: scaled
  rw [ref_scaled bcast_S100000x1_S100000x128_0_1]
  rw [ref_scaled bcast_S100000x1_S100000x128_0_1]
  -- what is left is the three layers with the reference's lookup-and-sum, degree columns and rows written out
  unfold net
  unfold aggR wrapColR normColR rowR128 rowR47
  rfl

end Cert.ReferenceIdeal.Hand

end
-- ==== Proof.IdWords.lean ====
/-
  Node ids as 32-bit words. An id w with -N ≤ w < N (N = 100000), wrapped as a table lookup wraps it (w + N when w is
  negative, else w), lies in [0, N - 1]: the range test a fill-mode lookup makes on the wrapped id always passes.
-/
import Idealize.ShloMosaic.PureOps
import Idealize.ShloMosaic.Lib.StableHlo.Predicate

namespace Cert.GraphConv

open Idealize.ShloMosaic

theorem toInt_lit0 : (0#32 : BitVec 32).toInt = 0 := by decide
theorem toInt_litN : (100000#32 : BitVec 32).toInt = 100000 := by decide
theorem toInt_litN1 : (99999#32 : BitVec 32).toInt = 99999 := by decide
theorem toInt_litNegN : (4294867296#32 : BitVec 32).toInt = -100000 := by decide

/-- A non-negative id below N is at most N - 1. -/
theorem id_nonneg_in_range (w : BitVec 32) (h1 : w.slt 0#32 = false) (h2 : w.slt 100000#32 = true) :
    (0#32).sle w = true ∧ w.sle 99999#32 = true := by
  have h1' : ¬ w.toInt < 0 := by
    intro h; rw [BitVec.slt, toInt_lit0, decide_eq_false_iff_not] at h1; exact h1 h
  simp only [BitVec.slt, BitVec.sle, decide_eq_true_eq, toInt_lit0, toInt_litN, toInt_litN1] at *
  omega

/-- A negative id no less than -N, moved up by N, lands in [0, N - 1]. -/
theorem id_neg_wrapped_in_range (w : BitVec 32) (h1 : (4294867296#32 : BitVec 32).sle w = true) (h3 : w.slt 0#32 = true) :
    (0#32).sle (w + 100000#32) = true ∧ (w + 100000#32).sle 99999#32 = true := by
  have hw := BitVec.toInt_add w 100000#32
  simp only [BitVec.slt, BitVec.sle, decide_eq_true_eq, toInt_lit0, toInt_litN, toInt_litN1, toInt_litNegN] at *
  rw [hw, Int.bmod_def]
  constructor <;> (split <;> omega)

/-- The wrapped id of an id in [-N, N) passes both range tests of the lookup. -/
theorem wrapped_id_in_range (w : BitVec 32)
    (hlo : IntOp.cmpi .sge w 4294867296#32 = 1#1) (hhi : IntOp.cmpi .slt w 100000#32 = 1#1) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have hlo' : (4294867296#32 : BitVec 32).sle w = true := (StableHlo.Predicate.ofBool_eq_one_iff _).mp hlo
  have hhi' : w.slt 100000#32 = true := (StableHlo.Predicate.ofBool_eq_one_iff _).mp hhi
  by_cases hneg : w.slt 0#32 = true
  · obtain ⟨a, b⟩ := id_neg_wrapped_in_range w hlo' hneg
    simp [IntOp.cmpi, IntOp.andi, IntOp.addi, Scalar.select, hneg, a, b]
  · have hneg' : w.slt 0#32 = false := by simpa using hneg
    obtain ⟨a, b⟩ := id_nonneg_in_range w hneg' hhi'
    simp [IntOp.cmpi, IntOp.andi, Scalar.select, hneg', a, b]

/-- A left fold by `and` over bits that are all set, started at a set bit, ends at a set bit. -/
theorem foldl_andi_all_set {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_all_set f hf l

/-- An `and`-reduction of an array of set bits, from a set bit, is set at every index. -/
theorem reduce_andi_of_all_set {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  unfold Host.reduce
  rw [hinit]
  exact foldl_andi_all_set (fun n => x (s.rowMajor.symm n)) (fun n => hx _) _

end Cert.GraphConv
-- ==== Proof.FillMask.lean ====
/-
  The range test of a fill-mode row lookup, for ids in [-N, N).

  A lookup of rows at a column of ids wraps each id w (w + N when w is negative, else w), tests 0 ≤ wrapped ≤ N - 1,
  and lays the test's bit along the looked-up row. For ids with -N ≤ w < N the wrapped id is in [0, N - 1], so the bit is
  set at every entry of the [E, 128] mask: the select it feeds keeps every looked-up row.
-/
import proofs.«402026_j9818295239119_1_alg».proof.Proof.ConvMaps
import proofs.«402026_j9818295239119_1_alg».proof.Proof.IdWords
import Idealize.ShloMosaic.Lib.Pipeline.Value
import Idealize.ShloMosaic.Lib.StableHlo.Predicate

namespace Cert.GraphConv

open Idealize.ShloMosaic Idealize.ShloMosaic.ValueIdx Idealize.ShloMosaic.StableHlo.Predicate

-- the scalar shape, the one-entry vector and the one-entry table the lookup's constants are printed at
local notation "S0" => (⟨0, ![]⟩ : Shape)
local notation "S1" => (⟨1, ![1]⟩ : Shape)
local notation "S1x1" => (⟨2, ![1, 1]⟩ : Shape)

/-- A broadcast of an array of set bits is set at every index: it only renames indices. -/
theorem fillMask_bcast_of_all_set {s t : Shape} (dims : Fin s.rank → Fin t.rank) (h : s.BroadcastsInDim t dims)
    (x : s.Idx → BitVec 1) (hx : ∀ j, x j = 1#1) (i : t.Idx) : broadcastInDim t dims h x i = 1#1 :=
  hx _

/-- Every index of an [n, 1] column is (p, 0). -/
theorem fillMask_col_idx_eq {n : Nat} (j : (⟨2, ![n, 1]⟩ : Shape).Idx) : j = ixP (j 0) := by
  funext a
  match a with
  | ⟨0, _⟩ => rfl
  | ⟨1, _⟩ =>
    apply Fin.ext
    show (j 1).val = 0
    have h : (j 1).val < 1 := (j 1).isLt
    omega

/-- The wrapped id of edge k: the id moved up by N when it is negative. -/
theorem fillMask_wrap_apply (hb0 : Shape.BroadcastsInDim S0 SE ![]) (src : IVec SE 32) (k : SE.Idx) :
    select (cmpi .slt src (broadcastInDim SE ![] hb0 (constantI S0 32 0#32)))
        (addi src (broadcastInDim SE ![] hb0 (constantI S0 32 100000#32))) src k
      = Scalar.select (IntOp.cmpi .slt (src k) 0#32) (IntOp.addi (src k) 100000#32) (src k) := rfl

/-- One entry of the range test: the column's entry e compares the wrapped id of edge e with the two bounds. -/
theorem fillMask_entry (hbcol : SE.BroadcastsInDim SEx1 ![0]) (W : SE.Idx → BitVec 32) (Z M : SEx1.Idx → BitVec 32)
    (e : Fin 1600000) (hZ : Z (ixP e) = 0#32) (hM : M (ixP e) = 99999#32)
    (hW : IntOp.andi (IntOp.cmpi .sge (W (Shape.Idx.ofFin e)) 0#32) (IntOp.cmpi .sle (W (Shape.Idx.ofFin e)) 99999#32) = 1#1) :
    andi (cmpi .sge (broadcastInDim SEx1 ![0] hbcol W) Z) (cmpi .sle (broadcastInDim SEx1 ![0] hbcol W) M) (ixP e) = 1#1 := by
  show IntOp.andi (IntOp.cmpi .sge (broadcastInDim SEx1 ![0] hbcol W (ixP e)) (Z (ixP e)))
      (IntOp.cmpi .sle (broadcastInDim SEx1 ![0] hbcol W (ixP e)) (M (ixP e))) = 1#1
  rw [hZ, hM, bcast_col1 hbcol W e]
  exact hW

/-- For ids in [-N, N) the lookup's range bit, laid along the rows, is set at every entry. -/
theorem range_bits_all_set
    (hb0 : Shape.BroadcastsInDim S0 SE ![]) (hbcol : SE.BroadcastsInDim SEx1 ![0]) (hb0c : Shape.BroadcastsInDim S0 SEx1 ![])
    (hb11 : Shape.BroadcastsInDim S1 S1x1 ![1]) (hb11c : Shape.BroadcastsInDim S1x1 SEx1 ![0, 1])
    (hred : SEx1.ReducesTo [1] SE) (h0 : 0 < Shape.numel S0) (hbm : SE.BroadcastsInDim SEx128 ![0])
    (src : IVec SE 32)
    (hsrc : ∀ e : SE.Idx, IntOp.cmpi .sge (src e) 4294867296#32 = 1#1 ∧ IntOp.cmpi .slt (src e) 100000#32 = 1#1) :
    ∀ i : SEx128.Idx,
      broadcastInDim SEx128 ![0] hbm
        (Host.reduce IntOp.andi
          (andi (cmpi .sge (broadcastInDim SEx1 ![0] hbcol (select (cmpi .slt src (broadcastInDim SE ![] hb0 (constantI S0 32 0#32))) (addi src (broadcastInDim SE ![] hb0 (constantI S0 32 100000#32))) src)) (broadcastInDim SEx1 ![] hb0c (constantI S0 32 0#32)))
            (cmpi .sle (broadcastInDim SEx1 ![0] hbcol (select (cmpi .slt src (broadcastInDim SE ![] hb0 (constantI S0 32 0#32))) (addi src (broadcastInDim SE ![] hb0 (constantI S0 32 100000#32))) src)) (broadcastInDim SEx1 ![0, 1] hb11c (broadcastInDim S1x1 ![1] hb11 (constantI S1 32 99999#32)))))
          (constantI S0 1 1#1) hred h0) i = 1#1 := by
  intro i
  refine fillMask_bcast_of_all_set _ hbm _ (fun j => reduce_andi_of_all_set _ _ hred h0 (fun idx => ?_) rfl j) i
  obtain ⟨e, rfl⟩ : ∃ e : Fin 1600000, idx = ixP e := ⟨idx 0, fillMask_col_idx_eq idx⟩
  -- the two bounds are constants wherever they are read; the wrapped id of an id in [-N, N) passes both tests
  refine fillMask_entry hbcol _ _ _ e rfl rfl ?_
  rw [fillMask_wrap_apply hb0 src]
  exact wrapped_id_in_range _ (hsrc _).1 (hsrc _).2

end Cert.GraphConv
-- ==== Proof.PreRange.lean ====
/-
  The id range read out of the precondition.

  The precondition is a chain of "and"s of whole-array tests, the last of which says every source id w satisfies
  -N ≤ w < N as a signed word (N = 100000). From "the chain is 1" this module keeps that last conjunct and reads it at
  one edge.
-/
import proofs.«402026_j9818295239119_1_alg».proof.Defs
import proofs.«402026_j9818295239119_1_alg».proof.Proof.Gen.Pre_finite_inputs
import Idealize.ShloMosaic.Lib.ReduceAll
import Idealize.ShloMosaic.Lib.StableHlo.Predicate
import Idealize.ShloMosaic.Lib.ValueIdx

namespace Cert.Proof.PreRange

open Idealize.ShloMosaic

variable [hPre : Cert.Pre_finite_inputs.Facts]

/-- Where the precondition holds, every source id lies in [-N, N) as a signed word. -/
theorem src_in_range {F : FTy → Type} [FloatOps F] (a0 : FVec F Cert.Pre_finite_inputs.S100000x128 .f32) (a1 a2 : IVec Cert.Pre_finite_inputs.S1600000 32) (a3 : FVec F Cert.Pre_finite_inputs.S128x128 .f32) (a4 : FVec F Cert.Pre_finite_inputs.S128 .f32) (a5 : FVec F Cert.Pre_finite_inputs.S128x128 .f32) (a6 : FVec F Cert.Pre_finite_inputs.S128 .f32) (a7 : FVec F Cert.Pre_finite_inputs.S128x47 .f32) (a8 : FVec F Cert.Pre_finite_inputs.S47 .f32)
    (h : Cert.Pre_finite_inputs.fn (F := F) a0 a1 a2 a3 a4 a5 a6 a7 a8 = (fun _ => 1#1)) :
    ∀ e : Cert.Pre_finite_inputs.S1600000.Idx, IntOp.cmpi .sge (a1 e) 4294867296#32 = 1#1 ∧ IntOp.cmpi .slt (a1 e) 100000#32 = 1#1 := by
  intro e
  -- a scalar has one index
  haveI : Subsingleton Cert.Pre_finite_inputs.S_.Idx := ⟨fun a b => funext fun d => d.elim0⟩
  have h0 := congrFun h ValueIdx.ix0
  unfold Cert.Pre_finite_inputs.fn Cert.Pre_finite_inputs.fn_part1 Cert.Pre_finite_inputs.fn_part2 at h0
  dsimp only at h0
  -- the chain's last link is the "and" of the float tests with the id test: keep the id test
  have h1 := (IntOp.andi_eq_one.1 (h0 : IntOp.andi _ _ = 1#1)).2
  -- an "and" over all edges that is 1 had a 1 at every edge
  have h2 := Host.reduce_andi_all _ _ _ _ _ h1 e
  -- at edge e: the two comparisons, each against a constant laid along the edges
  obtain ⟨hlo, hhi⟩ := IntOp.andi_eq_one.1 (h2 : IntOp.andi _ _ = 1#1)
  exact ⟨hlo, hhi⟩

end Cert.Proof.PreRange
-- ==== Proof.Bridge.lean ====
/-
  The two programs compute one function.

  The kernel's result array is the three layers with the fill-mode lookup as the aggregation and the degree columns and
  bias rows made by casts; the reference's is the three layers with the plain lookup and the columns and rows made by
  broadcasts. Where every source id is at least -N and below N (N the number of nodes) the fill-mode lookup never fills, so the two
  aggregations are one function; a vector cast to a column, or to a row, is the vector broadcast to it. So both runs end
  with the same table, as a function of arguments that agree.
-/
import proofs.«402026_j9818295239119_1_alg».proof.Defs
import proofs.«402026_j9818295239119_1_alg».proof.Proof.HostChain
import proofs.«402026_j9818295239119_1_alg».proof.Proof.KernelRun
import proofs.«402026_j9818295239119_1_alg».proof.Proof.RefStages
import proofs.«402026_j9818295239119_1_alg».proof.Proof.RefMaps
import proofs.«402026_j9818295239119_1_alg».proof.Proof.FillMask
import proofs.«402026_j9818295239119_1_alg».proof.Proof.PreRange
import proofs.«402026_j9818295239119_1_alg».proof.Proof.Gen.Pre_finite_inputs

noncomputable section

open Idealize.ShloMosaic Idealize.ShloMosaic.TcCoe Idealize.SL.Sem

namespace Cert.Proof.Bridge

open Cert.GraphConv

/-- The ids' range, as the precondition states it of every id. -/
def IdsInRange (src : IVec ⟨1, ![1600000]⟩ 32) : Prop :=
  ∀ e : (⟨1, ![1600000]⟩ : Shape).Idx, IntOp.cmpi .sge (src e) 4294867296#32 = 1#1 ∧ IntOp.cmpi .slt (src e) 100000#32 = 1#1

/-- With every id in range the fill-mode lookup is the plain lookup, so the kernel's aggregation is the reference's. -/
theorem agg_eq (src dst : IVec ⟨1, ![1600000]⟩ 32) (hsrc : IdsInRange src) (h : SNx128.Idx → EReal) :
    Cert.KernelIdeal.Hand.aggFill (F := Ideal) src dst h = Cert.ReferenceIdeal.Hand.aggR src dst h := by
  have hl : Cert.KernelIdeal.Hand.lookupFill (F := Ideal) h src
      = Host.gather Cert.KernelIdeal.gather_S100000x128_S1600000x1_S1600000x128_1_0_n_n_0_1_1128 h (Cert.KernelIdeal.Hand.wrapCol src) :=
    select_of_all_set _ _ _ (range_bits_all_set _ _ _ _ _ _ _ _ src hsrc)
  rw [Cert.KernelIdeal.Hand.aggFill_eq, hl]
  rfl

/-- The degree column by a cast is the degree column by a broadcast. -/
theorem norm_eq (ids : IVec ⟨1, ![1600000]⟩ 32) :
    Cert.KernelIdeal.Hand.normCol (F := Ideal) ids = Cert.ReferenceIdeal.Hand.normColR ids :=
  col_cast_eq_bcast _ _ _

/-- A bias vector cast to a row is the vector broadcast to a row. -/
theorem row128_eq (b : (⟨1, ![128]⟩ : Shape).Idx → EReal) (h1 : (⟨1, ![128]⟩ : Shape).ShapeCasts ⟨2, ![1, 128]⟩) :
    shapeCast ⟨2, ![1, 128]⟩ b h1 = Cert.ReferenceIdeal.Hand.rowR128 b :=
  row_cast_eq_bcast _ _ _
theorem row47_eq (b : (⟨1, ![47]⟩ : Shape).Idx → EReal) (h1 : (⟨1, ![47]⟩ : Shape).ShapeCasts ⟨2, ![1, 47]⟩) :
    shapeCast ⟨2, ![1, 47]⟩ b h1 = Cert.ReferenceIdeal.Hand.rowR47 b :=
  row_cast_eq_bcast _ _ _

/-- `net` respects equality of each of its arguments. -/
theorem net_congr {agg agg' : (SNx128.Idx → EReal) → (SNx128.Idx → EReal)} {x x' : SNx128.Idx → EReal} {ns ns' nd nd' : SNx1.Idx → EReal}
    {W0 W0' W1 W1' : (⟨2, ![128, 128]⟩ : Shape).Idx → EReal} {b0 b0' b1 b1' : (⟨2, ![1, 128]⟩ : Shape).Idx → EReal}
    {W2 W2' : (⟨2, ![128, 47]⟩ : Shape).Idx → EReal} {b2 b2' : (⟨2, ![1, 47]⟩ : Shape).Idx → EReal}
    (ha : agg = agg') (hx : x = x') (hns : ns = ns') (hnd : nd = nd') (h0 : W0 = W0') (hb0 : b0 = b0') (h1 : W1 = W1')
    (hb1 : b1 = b1') (h2 : W2 = W2') (hb2 : b2 = b2') :
    net agg x ns nd W0 b0 W1 b1 W2 b2 = net agg' x' ns' nd' W0' b0' W1' b1' W2' b2' := by
  subst ha hx hns hnd h0 hb0 h1 hb1 h2 hb2; rfl

section Claims

variable [hPre : Cert.Pre_finite_inputs.Facts]

/-- The table both runs end with, as a function of the kernel's launch memory. -/
abbrev result (m : (ℓ : Loc Cert.KernelIdeal.nD Cert.KernelIdeal.τ Cert.KernelIdeal.sig) → Buf (Elt Ideal) ℓ)
    (c : Dev Cert.KernelIdeal.nD) : (⟨2, ![100000, 47]⟩ : Shape).Idx → EReal :=
  net (Cert.KernelIdeal.Hand.agg m c) (Cert.KernelIdeal.Hand.xs m c) (Cert.KernelIdeal.Hand.nsrc m c) (Cert.KernelIdeal.Hand.ndst m c)
    (Cert.KernelIdeal.Hand.w0 m c) (Cert.KernelIdeal.Hand.r0 m c) (Cert.KernelIdeal.Hand.w1 m c) (Cert.KernelIdeal.Hand.r1 m c)
    (Cert.KernelIdeal.Hand.w2 m c) (Cert.KernelIdeal.Hand.r2 m c)

/-- The reference's result term, of arguments that agree with the kernel's and whose source ids are in range, is that table. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hsrc : IdsInRange (m ((c.tc : Thread Cert.KernelIdeal.nD Cert.KernelIdeal.τ).loc Cert.KernelIdeal.main_arg1)))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_main_v76 (F := Ideal) m' c : (⟨2, ![100000, 47]⟩ : Shape).Idx → EReal) = result m c := by
  rw [Cert.ReferenceIdeal.Hand.res_eq_net m' c, e0, e1, e2, e3, e4, e5, e6, e7, e8]
  exact (net_congr (funext fun h => agg_eq _ _ hsrc h) rfl (norm_eq _) (norm_eq _) rfl (row128_eq _ _) rfl (row128_eq _ _) rfl
    (row47_eq _ _)).symm

end Claims

end Cert.Proof.Bridge

end
-- ==== Proof.lean ====
/-
  The certificate's claims. The three layers of a graph convolution, written once with six fused row-wise kernels around
  the edge lookup and sum and once with host operations throughout, are one function of the inputs over the extended
  reals, where every float input is finite and every edge's source id is at least -N and below N (N the number of nodes).
  Both frames of the kernel program are the generated ones; the reference's frame is its generated run with the result
  dropped; the idealized kernel is the kernel's own text (nothing was rewritten); the two results agree by the bridge
  between the kernel's run, read boundary by boundary, and the reference's run term.
-/
import proofs.«402026_j9818295239119_1_alg».proof.Defs
import proofs.«402026_j9818295239119_1_alg».proof.Proof.Gen.Kernel
import proofs.«402026_j9818295239119_1_alg».proof.Proof.Gen.Kernel.Frame
import proofs.«402026_j9818295239119_1_alg».proof.Proof.Gen.KernelIdeal
import proofs.«402026_j9818295239119_1_alg».proof.Proof.Gen.KernelIdeal.Frame
import proofs.«402026_j9818295239119_1_alg».proof.Proof.Gen.ReferenceIdeal
import proofs.«402026_j9818295239119_1_alg».proof.Proof.Gen.ReferenceIdeal.Run
import proofs.«402026_j9818295239119_1_alg».proof.Proof.Gen.Pre_finite_inputs
import proofs.«402026_j9818295239119_1_alg».proof.Proof.KernelRun
import proofs.«402026_j9818295239119_1_alg».proof.Proof.Bridge
import proofs.«402026_j9818295239119_1_alg».proof.Proof.PreRange
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with `Bridge.result` of the kernel's launch memory in their result arrays. -/
theorem algebraic : Cert.algebraic_KernelIdeal_ReferenceIdeal := by
  intro m ρ m' ρ' hpre hagree
  refine ⟨fun c => Bridge.result m c, ?_, ?_⟩
  · exact (θ_run Cert.KernelIdeal.defs _ _).mono
      (fun r h c => ⟨(h c).1.trans (Cert.KernelIdeal.Hand.kernel_value m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    exact Bridge.reference_value m m' c (PreRange.src_in_range _ _ _ _ _ _ _ _ _ (hpre c)) e0 e1 e2 e3 e4 e5 e6 e7 e8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
